-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x32x32 : Shape := ⟨4, ![8192, 1, 32, 32]⟩
abbrev S512x2 : Shape := ⟨2, ![512, 2]⟩
abbrev S7 : Shape := ⟨1, ![7]⟩
abbrev S_ : Shape := ⟨0, ![]⟩

class Facts : Prop where
  bcast_S_S8192x1x32x32 : S_.BroadcastsInDim S8192x1x32x32 (![] : Fin 0 → Fin S8192x1x32x32.rank)
  reducesTo_S8192x1x32x32_S_d0_1_2_3 : S8192x1x32x32.ReducesTo [0, 1, 2, 3] S_
  h_S_ : 0 < S_.numel
  bcast_S_S7 : S_.BroadcastsInDim S7 (![] : Fin 0 → Fin S7.rank)
  reducesTo_S7_S_d0 : S7.ReducesTo [0] S_
  bcast_S_S512x2 : S_.BroadcastsInDim S512x2 (![] : Fin 0 → Fin S512x2.rank)
  reducesTo_S512x2_S_d0_1 : S512x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x1x32x32 .f32) (main_arg1 : IVec S512x2 32) (main_arg2 : FVec F S7 .f32) : IVec S_ 1 :=
  let main_v0 : FVec F S8192x1x32x32 .f32 := Host.absf main_arg0
  let main_cst : FVec F S_ .f32 := constant S_ .f32 0x7F800000#32
  let main_v1 : FVec F S8192x1x32x32 .f32 := broadcastInDim S8192x1x32x32 ![] bcast_S_S8192x1x32x32 main_cst
  let main_v2 : IVec S8192x1x32x32 1 := cmpf .olt main_v0 main_v1
  let main_c : IVec S_ 1 := constantI S_ 1 1#1
  let main_v3 : IVec S_ 1 := (fun x v => Host.reduce IntOp.andi x v reducesTo_S8192x1x32x32_S_d0_1_2_3 h_S_) main_v2 main_c
  let main_v4 : FVec F S7 .f32 := Host.absf main_arg2
  let main_cst_0 : FVec F S_ .f32 := constant S_ .f32 0x7F800000#32
  let main_v5 : FVec F S7 .f32 := broadcastInDim S7 ![] bcast_S_S7 main_cst_0
  let main_v6 : IVec S7 1 := cmpf .olt main_v4 main_v5
  let main_c_1 : IVec S_ 1 := constantI S_ 1 1#1
  let main_v7 : IVec S_ 1 := (fun x v => Host.reduce IntOp.andi x v reducesTo_S7_S_d0 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg1 main_v9
  let main_c_3 : IVec S_ 1 := constantI S_ 1 1#1
  let main_v11 : IVec S_ 1 := (fun x v => Host.reduce IntOp.andi x v reducesTo_S512x2_S_d0_1 h_S_) main_v10 main_c_3
  let main_v12 : IVec S_ 1 := andi main_v8 main_v11
  let main_c_4 : IVec S_ 32 := constantI S_ 32 1024#32
  let main_v13 : IVec S512x2 32 := broadcastInDim S512x2 ![] bcast_S_S512x2 main_c_4
  let main_v14 : IVec S512x2 1 := cmpi .slt main_arg1 main_v13
  let main_c_5 : IVec S_ 1 := constantI S_ 1 1#1
  let main_v15 : IVec S_ 1 := (fun x v => Host.reduce IntOp.andi x v reducesTo_S512x2_S_d0_1 h_S_) main_v14 main_c_5
  fn_part1 (F := F) main_v12 main_v15
-- ==== Kernel.lean ====
abbrev S8192x1x32x32 : Shape := ⟨4, ![8192, 1, 32, 32]⟩
abbrev S512x2 : Shape := ⟨2, ![512, 2]⟩
abbrev S7 : Shape := ⟨1, ![7]⟩
abbrev S8192x1024 : Shape := ⟨2, ![8192, 1024]⟩
abbrev S512x1 : Shape := ⟨2, ![512, 1]⟩
abbrev S512 : Shape := ⟨1, ![512]⟩
abbrev S_ : Shape := ⟨0, ![]⟩
abbrev S1 : Shape := ⟨1, ![1]⟩
abbrev S1x1 : Shape := ⟨2, ![1, 1]⟩
abbrev S8192x512 : Shape := ⟨2, ![8192, 512]⟩
abbrev S14 : Shape := ⟨1, ![14]⟩
abbrev S1x14 : Shape := ⟨2, ![1, 14]⟩
abbrev S512x14 : Shape := ⟨2, ![512, 14]⟩
abbrev S7168 : Shape := ⟨1, ![7168]⟩
abbrev S1x7168 : Shape := ⟨2, ![1, 7168]⟩
abbrev S8192x7168 : Shape := ⟨2, ![8192, 7168]⟩
abbrev S16x512 : Shape := ⟨2, ![16, 512]⟩
abbrev S16x7168 : Shape := ⟨2, ![16, 7168]⟩
abbrev S16x512x1 : Shape := ⟨3, ![16, 512, 1]⟩
abbrev S16x512x14 : Shape := ⟨3, ![16, 512, 14]⟩
abbrev S8192x1024x7 : Shape := ⟨3, ![8192, 1024, 7]⟩

abbrev nBuf : Space → Nat
  | .hbm => 83
  | .vmem => 9
  | .smem => 0
  | _ => 0

abbrev bufTy : (tb : Table) → Fin (tcTables nBuf tb) → BufTy
  | .hbm, ⟨0, _⟩ => ⟨S8192x1x32x32, .f32⟩
  | .hbm, ⟨1, _⟩ => ⟨S512x2, .i32⟩
  | .hbm, ⟨2, _⟩ => ⟨S7, .f32⟩
  | .hbm, ⟨3, _⟩ => ⟨S8192x1024, .f32⟩
  | .hbm, ⟨4, _⟩ => ⟨S512x1, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S1, .i32⟩
  | .hbm, ⟨15, _⟩ => ⟨S_, .i32⟩
  | .hbm, ⟨16, _⟩ => ⟨S512x1, .i32⟩
  | .hbm, ⟨17, _⟩ => ⟨S512x1, .i1⟩
  | .hbm, ⟨18, _⟩ => ⟨S1x1, .i32⟩
  | .hbm, ⟨19, _⟩ => ⟨S512x1, .i32⟩
  | .hbm, ⟨20, _⟩ => ⟨S512x1, .i1⟩
  | .hbm, ⟨21, _⟩ => ⟨S512x1, .i1⟩
  | .hbm, ⟨22, _⟩ => ⟨S_, .i1⟩
  | .hbm, ⟨23, _⟩ => ⟨S512, .i1⟩
  | .hbm, ⟨24, _⟩ => ⟨S8192x512, .f32⟩
  | .hbm, ⟨25, _⟩ => ⟨S8192x512, .i1⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S512x1, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S1, .i32⟩
  | .hbm, ⟨40, _⟩ => ⟨S_, .i32⟩
  | .hbm, ⟨41, _⟩ => ⟨S512x1, .i32⟩
  | .hbm, ⟨42, _⟩ => ⟨S512x1, .i1⟩
  | .hbm, ⟨43, _⟩ => ⟨S1x1, .i32⟩
  | .hbm, ⟨44, _⟩ => ⟨S512x1, .i32⟩
  | .hbm, ⟨45, _⟩ => ⟨S512x1, .i1⟩
  | .hbm, ⟨46, _⟩ => ⟨S512x1, .i1⟩
  | .hbm, ⟨47, _⟩ => ⟨S_, .i1⟩
  | .hbm, ⟨48, _⟩ => ⟨S512, .i1⟩
  | .hbm, ⟨49, _⟩ => ⟨S8192x512, .f32⟩
  | .hbm, ⟨50, _⟩ => ⟨S8192x512, .i1⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S7, .f32⟩
  | .hbm, ⟨56, _⟩ => ⟨S7, .f32⟩
  | .hbm, ⟨57, _⟩ => ⟨S7, .f32⟩
  | .hbm, ⟨58, _⟩ => ⟨S_, .f32⟩
  | .hbm, ⟨59, _⟩ => ⟨S7, .f32⟩
  | .hbm, ⟨60, _⟩ => ⟨S7, .f32⟩
  | .hbm, ⟨61, _⟩ => ⟨S7, .f32⟩
  | .hbm, ⟨62, _⟩ => ⟨S14, .f32⟩
  | .hbm, ⟨63, _⟩ => ⟨S14, .f32⟩
  | .hbm, ⟨64, _⟩ => ⟨S_, .f32⟩
  | .hbm, ⟨65, _⟩ => ⟨S7, .f32⟩
  | .hbm, ⟨66, _⟩ => ⟨S_, .f32⟩
  | .hbm, ⟨67, _⟩ => ⟨S7, .f32⟩
  | .hbm, ⟨68, _⟩ => ⟨S14, .f32⟩
  | .hbm, ⟨69, _⟩ => ⟨S1x14, .f32⟩
  | .hbm, ⟨70, _⟩ => ⟨S512x14, .f32⟩
  | .hbm, ⟨71, _⟩ => ⟨S7168, .f32⟩
  | .hbm, ⟨72, _⟩ => ⟨S1x7168, .f32⟩
  | .hbm, ⟨73, _⟩ => ⟨S1x14, .f32⟩
  | .hbm, ⟨74, _⟩ => ⟨S512x14, .f32⟩
  | .hbm, ⟨75, _⟩ => ⟨S7168, .f32⟩
  | .hbm, ⟨76, _⟩ => ⟨S1x7168, .f32⟩
  | .hbm, ⟨77, _⟩ => ⟨S1x14, .f32⟩
  | .hbm, ⟨78, _⟩ => ⟨S512x14, .f32⟩
  | .hbm, ⟨79, _⟩ => ⟨S7168, .f32⟩
  | .hbm, ⟨80, _⟩ => ⟨S1x7168, .f32⟩
  | .hbm, ⟨81, _⟩ => ⟨S8192x7168, .f32⟩
  | .hbm, ⟨82, _⟩ => ⟨S8192x1024x7, .f32⟩
  | .local _ .vmem, ⟨0, _⟩ => ⟨S1x7168, .f32⟩
  | .local _ .vmem, ⟨1, _⟩ => ⟨S1x7168, .f32⟩
  | .local _ .vmem, ⟨2, _⟩ => ⟨S1x7168, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x7168, .f32⟩
  | .local _ .vmem, ⟨8, _⟩ => ⟨S16x7168, .f32⟩
  | _, _ => ⟨S8192x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v6 : Ref sig .tc := ⟨.hbm, 53, rfl⟩
abbrev main_cst : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_0 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_cst_1 : Ref sig .tc := ⟨.hbm, 64, rfl⟩
abbrev main_v15 : Ref sig .tc := ⟨.hbm, 65, rfl⟩
abbrev main_cst_2 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192x1x32x32_S8192x1024 : S8192x1x32x32.ShapeCasts S8192x1024
  slices_S512x2_S512x1_0_0 : S512x2.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S8192x512_1 : S512.BroadcastsInDim S8192x512 (![1] : Fin 1 → Fin S8192x512.rank)
  bcast_S_S8192x512 : S_.BroadcastsInDim S8192x512 (![] : Fin 0 → Fin S8192x512.rank)
  slices_S512x2_S512x1_0_1 : S512x2.Slices ![0, 1] S512x1
  bcast_S_S7 : S_.BroadcastsInDim S7 (![] : Fin 0 → Fin S7.rank)
  concatenates_S7_S7_S14_d0 : Shape.Concatenates [S7, S7] S14 0
  shapeCasts_S14_S1x14 : S14.ShapeCasts S1x14
  bcast_S1x14_S512x14_0_1 : S1x14.BroadcastsInDim S512x14 (![0, 1] : Fin 2 → Fin S512x14.rank)
  shapeCasts_S512x14_S7168 : S512x14.ShapeCasts S7168
  bcast_S7168_S1x7168_1 : S7168.BroadcastsInDim S1x7168 (![1] : Fin 1 → Fin S1x7168.rank)
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S16x512_S16x512x1 : S16x512.ShapeCasts S16x512x1
  broadcasts_S16x512x1_S16x512x14 : S16x512x1.Broadcasts S16x512x14
  shapeCasts_S16x512x14_S16x7168 : S16x512x14.ShapeCasts S16x7168
  inb_S1x7168_S1x7168_0_0 : ∀ a, (![0, 0] : Fin 2 → Nat) a + S1x7168.size a ≤ S1x7168.size a
  h_S1x7168 : 0 < S1x7168.numel
  shapeCasts_S1x7168_S1x7168 : S1x7168.ShapeCasts S1x7168
  broadcasts_S1x7168_S16x7168 : S1x7168.Broadcasts S16x7168
  inb_S16x7168_S16x7168_0_0 : ∀ a, (![0, 0] : Fin 2 → Nat) a + S16x7168.size a ≤ S16x7168.size a
  h_S16x7168 : 0 < S16x7168.numel
  shapeCasts_S8192x7168_S8192x1024x7 : S8192x7168.ShapeCasts S8192x1024x7
  gather_S8192x1024_S512x1_S8192x512_0_1_n_n_1_1_81921_wf : GatherDims.WF S8192x1024 S512x1 S8192x512 [0] [1] [] [1] [] 1 ![8192, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x7168.size a ≤ S1x7168.size a
  hwx0_0 : ∀ i : grid0.Coords, EltTy.bits .f32 = 32 ∨ (Rect.block (s := S1x7168) S1x7168.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x7168.size a ≤ S1x7168.size a
  hwx0_1 : ∀ i : grid0.Coords, EltTy.bits .f32 = 32 ∨ (Rect.block (s := S1x7168) S1x7168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7168.size a ≤ S1x7168.size a
  hwx0_2 : ∀ i : grid0.Coords, EltTy.bits .f32 = 32 ∨ (Rect.block (s := S1x7168) S1x7168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S8192x512.size a
  hwx0_3 : ∀ i : grid0.Coords, EltTy.bits .f32 = 32 ∨ (Rect.block (s := S8192x512) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S8192x512.size a
  hwx0_4 : ∀ i : grid0.Coords, EltTy.bits .f32 = 32 ∨ (Rect.block (s := S8192x512) S16x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x7168.size a ≤ S8192x7168.size a
  hwx0_5 : ∀ i : grid0.Coords, EltTy.bits .f32 = 32 ∨ (Rect.block (s := S8192x7168) S16x7168.size (cc0_transform_5 i) (hinb0_5 i)).WholeWords (EltTy.packing .f32)

variable [Facts₀]

def gather_S8192x1024_S512x1_S8192x512_0_1_n_n_1_1_81921 : GatherDims S8192x1024 S512x1 S8192x512 where
  offsetDims := [0]
  collapsedSliceDims := [1]
  operandBatchingDims := []
  startIndicesBatchingDims := []
  startIndexMap := [1]
  indexVectorDim := 1
  sliceSizes := ![8192, 1]
  wf := gather_S8192x1024_S512x1_S8192x512_0_1_n_n_1_1_81921_wf

abbrev win0_0 : Pipeline.Window sig grid0 :=
  Pipeline.Window.ofSpec (Memref.whole main_v21) S1x7168.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x7168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x7168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S16x7168.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1x32x32 : Shape := ⟨4, ![8192, 1, 32, 32]⟩
abbrev S512x2 : Shape := ⟨2, ![512, 2]⟩
abbrev S7 : Shape := ⟨1, ![7]⟩
abbrev S8192x1024 : Shape := ⟨2, ![8192, 1024]⟩
abbrev S512x1 : Shape := ⟨2, ![512, 1]⟩
abbrev S512 : Shape := ⟨1, ![512]⟩
abbrev S_ : Shape := ⟨0, ![]⟩
abbrev S8192x512 : Shape := ⟨2, ![8192, 512]⟩
abbrev S8192x512x1 : Shape := ⟨3, ![8192, 512, 1]⟩
abbrev S1x1x7 : Shape := ⟨3, ![1, 1, 7]⟩
abbrev S8192x512x7 : Shape := ⟨3, ![8192, 512, 7]⟩
abbrev S8192x512x1x7 : Shape := ⟨4, ![8192, 512, 1, 7]⟩
abbrev S8192x512x2x7 : Shape := ⟨4, ![8192, 512, 2, 7]⟩
abbrev S8192x1024x7 : Shape := ⟨3, ![8192, 1024, 7]⟩

abbrev nBuf : Space → Nat
  | .hbm => 114
  | .vmem => 0
  | .smem => 0
  | _ => 0

abbrev bufTy : (tb : Table) → Fin (tcTables nBuf tb) → BufTy
  | .hbm, ⟨0, _⟩ => ⟨S8192x1x32x32, .f32⟩
  | .hbm, ⟨1, _⟩ => ⟨S512x2, .i32⟩
  | .hbm, ⟨2, _⟩ => ⟨S7, .f32⟩
  | .hbm, ⟨3, _⟩ => ⟨S8192x1024, .f32⟩
  | .hbm, ⟨4, _⟩ => ⟨S512x1, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S8192x512, .f32⟩
  | .hbm, ⟨15, _⟩ => ⟨S512x1, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512x1, .f32⟩
  | .hbm, ⟨44, _⟩ => ⟨S8192x512, .f32⟩
  | .hbm, ⟨45, _⟩ => ⟨S8192x512x1, .f32⟩
  | .hbm, ⟨46, _⟩ => ⟨S8192x512, .f32⟩
  | .hbm, ⟨47, _⟩ => ⟨S8192x512x1, .f32⟩
  | .hbm, ⟨48, _⟩ => ⟨S8192x512, .f32⟩
  | .hbm, ⟨49, _⟩ => ⟨S8192x512x1, .f32⟩
  | .hbm, ⟨50, _⟩ => ⟨S_, .f32⟩
  | .hbm, ⟨51, _⟩ => ⟨S7, .f32⟩
  | .hbm, ⟨52, _⟩ => ⟨S7, .f32⟩
  | .hbm, ⟨53, _⟩ => ⟨S7, .f32⟩
  | .hbm, ⟨54, _⟩ => ⟨S_, .f32⟩
  | .hbm, ⟨55, _⟩ => ⟨S7, .f32⟩
  | .hbm, ⟨56, _⟩ => ⟨S7, .f32⟩
  | .hbm, ⟨57, _⟩ => ⟨S7, .f32⟩
  | .hbm, ⟨58, _⟩ => ⟨S1x1x7, .f32⟩
  | .hbm, ⟨59, _⟩ => ⟨S8192x512x7, .f32⟩
  | .hbm, ⟨60, _⟩ => ⟨S8192x512x7, .f32⟩
  | .hbm, ⟨61, _⟩ => ⟨S8192x512x7, .f32⟩
  | .hbm, ⟨62, _⟩ => ⟨S1x1x7, .f32⟩
  | .hbm, ⟨63, _⟩ => ⟨S8192x512x7, .f32⟩
  | .hbm, ⟨64, _⟩ => ⟨S8192x512x7, .f32⟩
  | .hbm, ⟨65, _⟩ => ⟨S8192x512x7, .f32⟩
  | .hbm, ⟨66, _⟩ => ⟨S8192x512x7, .f32⟩
  | .hbm, ⟨67, _⟩ => ⟨S1x1x7, .f32⟩
  | .hbm, ⟨68, _⟩ => ⟨S8192x512x7, .f32⟩
  | .hbm, ⟨69, _⟩ => ⟨S8192x512x7, .f32⟩
  | .hbm, ⟨70, _⟩ => ⟨S8192x512x7, .f32⟩
  | .hbm, ⟨71, _⟩ => ⟨S1x1x7, .f32⟩
  | .hbm, ⟨72, _⟩ => ⟨S8192x512x7, .f32⟩
  | .hbm, ⟨73, _⟩ => ⟨S8192x512x7, .f32⟩
  | .hbm, ⟨74, _⟩ => ⟨S8192x512x7, .f32⟩
  | .hbm, ⟨75, _⟩ => ⟨S8192x512x7, .f32⟩
  | .hbm, ⟨76, _⟩ => ⟨S1x1x7, .f32⟩
  | .hbm, ⟨77, _⟩ => ⟨S8192x512x7, .f32⟩
  | .hbm, ⟨78, _⟩ => ⟨S8192x512x7, .f32⟩
  | .hbm, ⟨79, _⟩ => ⟨S8192x512x7, .f32⟩
  | .hbm, ⟨80, _⟩ => ⟨S1x1x7, .f32⟩
  | .hbm, ⟨81, _⟩ => ⟨S8192x512x7, .f32⟩
  | .hbm, ⟨82, _⟩ => ⟨S8192x512x7, .f32⟩
  | .hbm, ⟨83, _⟩ => ⟨S8192x512x7, .f32⟩
  | .hbm, ⟨84, _⟩ => ⟨S8192x512x7, .f32⟩
  | .hbm, ⟨85, _⟩ => ⟨S1x1x7, .f32⟩
  | .hbm, ⟨86, _⟩ => ⟨S8192x512x7, .f32⟩
  | .hbm, ⟨87, _⟩ => ⟨S8192x512x7, .f32⟩
  | .hbm, ⟨88, _⟩ => ⟨S8192x512x7, .f32⟩
  | .hbm, ⟨89, _⟩ => ⟨S1x1x7, .f32⟩
  | .hbm, ⟨90, _⟩ => ⟨S8192x512x7, .f32⟩
  | .hbm, ⟨91, _⟩ => ⟨S8192x512x7, .f32⟩
  | .hbm, ⟨92, _⟩ => ⟨S8192x512x7, .f32⟩
  | .hbm, ⟨93, _⟩ => ⟨S8192x512x7, .f32⟩
  | .hbm, ⟨94, _⟩ => ⟨S8192x512x7, .f32⟩
  | .hbm, ⟨95, _⟩ => ⟨S8192x512x7, .f32⟩
  | .hbm, ⟨96, _⟩ => ⟨S8192x512x7, .f32⟩
  | .hbm, ⟨97, _⟩ => ⟨S8192x512x7, .f32⟩
  | .hbm, ⟨98, _⟩ => ⟨S8192x512x7, .f32⟩
  | .hbm, ⟨99, _⟩ => ⟨S8192x512x7, .f32⟩
  | .hbm, ⟨100, _⟩ => ⟨S8192x512x7, .f32⟩
  | .hbm, ⟨101, _⟩ => ⟨S8192x512x7, .f32⟩
  | .hbm, ⟨102, _⟩ => ⟨S8192x512x7, .f32⟩
  | .hbm, ⟨103, _⟩ => ⟨S8192x512x7, .f32⟩
  | .hbm, ⟨104, _⟩ => ⟨S8192x512x1x7, .f32⟩
  | .hbm, ⟨105, _⟩ => ⟨S8192x512x1x7, .f32⟩
  | .hbm, ⟨106, _⟩ => ⟨S8192x512x2x7, .f32⟩
  | .hbm, ⟨107, _⟩ => ⟨S_, .f32⟩
  | .hbm, ⟨108, _⟩ => ⟨S8192x512x2x7, .f32⟩
  | .hbm, ⟨109, _⟩ => ⟨S8192x512x2x7, .f32⟩
  | .hbm, ⟨110, _⟩ => ⟨S_, .f32⟩
  | .hbm, ⟨111, _⟩ => ⟨S8192x512x2x7, .f32⟩
  | .hbm, ⟨112, _⟩ => ⟨S8192x512x2x7, .f32⟩
  | .hbm, ⟨113, _⟩ => ⟨S8192x1024x7, .f32⟩
  | _, _ => ⟨S8192x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_8 : Ref sig .tc := ⟨.hbm, 107, rfl⟩
abbrev main_v94 : Ref sig .tc := ⟨.hbm, 108, rfl⟩
abbrev main_v95 : Ref sig .tc := ⟨.hbm, 109, rfl⟩
abbrev main_cst_9 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩

abbrev nD : Nat := 1
abbrev τ : Topo := Topo.v7x

variable {F : FTy → Type} [FloatOps F]

class Facts₀ : Prop where
  shapeCasts_S8192x1x32x32_S8192x1024 : S8192x1x32x32.ShapeCasts S8192x1024
  slices_S512x2_S512x1_0_0 : S512x2.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  slices_S512x2_S512x1_0_1 : S512x2.Slices ![0, 1] S512x1
  bcast_S_S8192x512 : S_.BroadcastsInDim S8192x512 (![] : Fin 0 → Fin S8192x512.rank)
  bcast_S8192x512_S8192x512x1_0_1 : S8192x512.BroadcastsInDim S8192x512x1 (![0, 1] : Fin 2 → Fin S8192x512x1.rank)
  bcast_S_S7 : S_.BroadcastsInDim S7 (![] : Fin 0 → Fin S7.rank)
  bcast_S7_S1x1x7_2 : S7.BroadcastsInDim S1x1x7 (![2] : Fin 1 → Fin S1x1x7.rank)
  bcast_S1x1x7_S8192x512x7_0_1_2 : S1x1x7.BroadcastsInDim S8192x512x7 (![0, 1, 2] : Fin 3 → Fin S8192x512x7.rank)
  bcast_S8192x512x1_S8192x512x7_0_1_2 : S8192x512x1.BroadcastsInDim S8192x512x7 (![0, 1, 2] : Fin 3 → Fin S8192x512x7.rank)
  bcast_S8192x512x7_S8192x512x1x7_0_1_3 : S8192x512x7.BroadcastsInDim S8192x512x1x7 (![0, 1, 3] : Fin 3 → Fin S8192x512x1x7.rank)
  concatenates_S8192x512x1x7_S8192x512x1x7_S8192x512x2x7_d2 : Shape.Concatenates [S8192x512x1x7, S8192x512x1x7] S8192x512x2x7 2
  bcast_S_S8192x512x2x7 : S_.BroadcastsInDim S8192x512x2x7 (![] : Fin 0 → Fin S8192x512x2x7.rank)
  shapeCasts_S8192x512x2x7_S8192x1024x7 : S8192x512x2x7.ShapeCasts S8192x1024x7
  gather_S8192x1024_S512x1_S8192x512_0_1_n_n_1_1_81921_wf : GatherDims.WF S8192x1024 S512x1 S8192x512 [0] [1] [] [1] [] 1 ![8192, 1]

variable [Facts₀]

def gather_S8192x1024_S512x1_S8192x512_0_1_n_n_1_1_81921 : GatherDims S8192x1024 S512x1 S8192x512 where
  offsetDims := [0]
  collapsedSliceDims := [1]
  operandBatchingDims := []
  startIndicesBatchingDims := []
  startIndexMap := [1]
  indexVectorDim := 1
  sliceSizes := ![8192, 1]
  wf := gather_S8192x1024_S512x1_S8192x512_0_1_n_n_1_1_81921_wf

class Facts : Prop extends Facts₀ where

variable [Facts]
-- ==== Proof.CircuitAlgebra.lean ====
/-
  The arithmetic of one output element, on the extended reals, for the two-qubit circuit
  RY0(θ) · CNOT · (RY(a) ⊗ RY(b)) |00⟩.

  With ca = cos(a/2), sa = sin(a/2), cb = cos(b/2), sb = sin(b/2) the state after the two rotations and the CNOT has the
  real amplitudes amp = (ca·cb, ca·sb, sa·sb, sa·cb), and the rotation by θ on qubit 0 (ct = cos(θ/2), st = sin(θ/2)) mixes
  them into n0 = ct·amp0 − st·amp2, n1 = ct·amp1 − st·amp3, n2 = st·amp0 + ct·amp2, n3 = st·amp1 + ct·amp3, with
  probabilities p_i = n_i².

  One program returns (⟨Z0⟩ + 1)/2 and (⟨Z1⟩ + 1)/2 with ⟨Z0⟩ = p0 + p1 − p2 − p3 and ⟨Z1⟩ = p0 − p1 + p2 − p3; the other
  drops p0 and returns 1 − p3 − p2 and 1 − p3 − p1, selecting between p2 and p1 by a 0/1 lane flag. They agree because the
  evolution is unitary: p0 + p1 + p2 + p3 = (ct² + st²)(ca² + sa²)(cb² + sb²) = 1. That needs cos² + sin² = 1, hence real
  (finite) angles: on the extended reals cos and sin of an infinity are a junk value.
-/
import Idealize.ShloMosaic.PureOps.Ideal
import Idealize.ShloMosaic.PureOps.Ideal.Laws
import Idealize.ShloMosaic.Lib.ValueIdx

noncomputable section

namespace Cert.Circuit

open Idealize.ShloMosaic

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The word of `0.0` denotes the real 0. -/
theorem ofBits_zero : Ideal.ofBits .f32 0x00000000#32 = ((0 : ℝ) : EReal) := by
  simp [Ideal.ofBits, Ideal.ieee]

/-- One lane of the flattened output as the program without p0 computes it: from the two angles `a`, `b`, the lane's
    `ct`, `st` and its flag `zv` (1 on a ⟨Z0⟩ lane, 0 on a ⟨Z1⟩ lane). -/
def lane (a b ct st zv : EReal) : EReal :=
  let h : EReal := Ideal.ofBits .f32 0x3F000000#32
  let one : EReal := Ideal.ofBits .f32 0x3F800000#32
  let ca := Ideal.cos (a * h)
  let sa := Ideal.sin (a * h)
  let cb := Ideal.cos (b * h)
  let sb := Ideal.sin (b * h)
  let n1 := ct * (ca * sb) - st * (sa * cb)
  let n2 := st * (ca * cb) + ct * (sa * sb)
  let n3 := st * (ca * sb) + ct * (sa * cb)
  one - n3 * n3 - (zv * (n2 * n2) + (one - zv) * (n1 * n1))

/-- One element of the output as the program with all four probabilities computes it: `z1 = false` is (⟨Z0⟩ + 1)/2,
    `z1 = true` is (⟨Z1⟩ + 1)/2. -/
def expect (a b ct st : EReal) (z1 : Bool) : EReal :=
  let h : EReal := Ideal.ofBits .f32 0x3F000000#32
  let one : EReal := Ideal.ofBits .f32 0x3F800000#32
  let ca := Ideal.cos (a * h)
  let sa := Ideal.sin (a * h)
  let cb := Ideal.cos (b * h)
  let sb := Ideal.sin (b * h)
  let n0 := ct * (ca * cb) - st * (sa * sb)
  let n1 := ct * (ca * sb) - st * (sa * cb)
  let n2 := st * (ca * cb) + ct * (sa * sb)
  let n3 := st * (ca * sb) + ct * (sa * cb)
  ((bif z1 then n0 * n0 - n1 * n1 + n2 * n2 - n3 * n3 else n0 * n0 + n1 * n1 - n2 * n2 - n3 * n3) + one) * h

/-- Unitarity over the reals: with each pair (c, s) on the unit circle, dropping p0 changes nothing. The difference of
    the two sides is (1 − p0 − p1 − p2 − p3)/2, and p0 + p1 + p2 + p3 = (ct² + st²)(ca² + sa²)(cb² + sb²). -/
theorem real_z0 (ca sa cb sb ct st : ℝ) (ha : ca ^ 2 + sa ^ 2 = 1) (hb : cb ^ 2 + sb ^ 2 = 1) (ht : ct ^ 2 + st ^ 2 = 1) :
    1 - (st * (ca * sb) + ct * (sa * cb)) * (st * (ca * sb) + ct * (sa * cb))
        - (1 * ((st * (ca * cb) + ct * (sa * sb)) * (st * (ca * cb) + ct * (sa * sb)))
          + (1 - 1) * ((ct * (ca * sb) - st * (sa * cb)) * (ct * (ca * sb) - st * (sa * cb))))
      = ((ct * (ca * cb) - st * (sa * sb)) * (ct * (ca * cb) - st * (sa * sb))
          + (ct * (ca * sb) - st * (sa * cb)) * (ct * (ca * sb) - st * (sa * cb))
          - (st * (ca * cb) + ct * (sa * sb)) * (st * (ca * cb) + ct * (sa * sb))
          - (st * (ca * sb) + ct * (sa * cb)) * (st * (ca * sb) + ct * (sa * cb)) + 1) * (1 / 2) := by
  linear_combination (-(1 / 2 : ℝ) * (ca ^ 2 + sa ^ 2) * (cb ^ 2 + sb ^ 2)) * ht
    + (-(1 / 2 : ℝ) * (cb ^ 2 + sb ^ 2)) * ha + (-(1 / 2 : ℝ)) * hb

/-- The same on a ⟨Z1⟩ lane (flag 0): 1 − p3 − p1 against (p0 − p1 + p2 − p3 + 1)/2. -/
theorem real_z1 (ca sa cb sb ct st : ℝ) (ha : ca ^ 2 + sa ^ 2 = 1) (hb : cb ^ 2 + sb ^ 2 = 1) (ht : ct ^ 2 + st ^ 2 = 1) :
    1 - (st * (ca * sb) + ct * (sa * cb)) * (st * (ca * sb) + ct * (sa * cb))
        - (0 * ((st * (ca * cb) + ct * (sa * sb)) * (st * (ca * cb) + ct * (sa * sb)))
          + (1 - 0) * ((ct * (ca * sb) - st * (sa * cb)) * (ct * (ca * sb) - st * (sa * cb))))
      = ((ct * (ca * cb) - st * (sa * sb)) * (ct * (ca * cb) - st * (sa * sb))
          - (ct * (ca * sb) - st * (sa * cb)) * (ct * (ca * sb) - st * (sa * cb))
          + (st * (ca * cb) + ct * (sa * sb)) * (st * (ca * cb) + ct * (sa * sb))
          - (st * (ca * sb) + ct * (sa * cb)) * (st * (ca * sb) + ct * (sa * cb)) + 1) * (1 / 2) := by
  linear_combination (-(1 / 2 : ℝ) * (ca ^ 2 + sa ^ 2) * (cb ^ 2 + sb ^ 2)) * ht
    + (-(1 / 2 : ℝ) * (cb ^ 2 + sb ^ 2)) * ha + (-(1 / 2 : ℝ)) * hb

/-- A ⟨Z0⟩ lane (flag the word of 1.0) of real angles is (⟨Z0⟩ + 1)/2. -/
theorem lane_one (a b t : ℝ) :
    lane (a : EReal) (b : EReal) (Ideal.cos ((t : EReal) * Ideal.ofBits .f32 0x3F000000#32))
        (Ideal.sin ((t : EReal) * Ideal.ofBits .f32 0x3F000000#32)) (Ideal.ofBits .f32 0x3F800000#32)
      = expect (a : EReal) (b : EReal) (Ideal.cos ((t : EReal) * Ideal.ofBits .f32 0x3F000000#32))
        (Ideal.sin ((t : EReal) * Ideal.ofBits .f32 0x3F000000#32)) false := by
  unfold lane expect
  simp only [ofBits_half, ofBits_one, ← EReal.coe_mul, Ideal.cos_coe, Ideal.sin_coe, ← EReal.coe_add, ← EReal.coe_sub,
    cond_false]
  rw [EReal.coe_eq_coe_iff]
  exact real_z0 _ _ _ _ _ _ (Real.cos_sq_add_sin_sq _) (Real.cos_sq_add_sin_sq _) (Real.cos_sq_add_sin_sq _)

/-- A ⟨Z1⟩ lane (flag the word of 0.0) of real angles is (⟨Z1⟩ + 1)/2. -/
theorem lane_zero (a b t : ℝ) :
    lane (a : EReal) (b : EReal) (Ideal.cos ((t : EReal) * Ideal.ofBits .f32 0x3F000000#32))
        (Ideal.sin ((t : EReal) * Ideal.ofBits .f32 0x3F000000#32)) (Ideal.ofBits .f32 0x00000000#32)
      = expect (a : EReal) (b : EReal) (Ideal.cos ((t : EReal) * Ideal.ofBits .f32 0x3F000000#32))
        (Ideal.sin ((t : EReal) * Ideal.ofBits .f32 0x3F000000#32)) true := by
  unfold lane expect
  simp only [ofBits_half, ofBits_one, ofBits_zero, ← EReal.coe_mul, Ideal.cos_coe, Ideal.sin_coe, ← EReal.coe_add,
    ← EReal.coe_sub, cond_true]
  rw [EReal.coe_eq_coe_iff]
  exact real_z1 _ _ _ _ _ _ (Real.cos_sq_add_sin_sq _) (Real.cos_sq_add_sin_sq _) (Real.cos_sq_add_sin_sq _)

/-! ## The whole result, as arrays

`A` and `B` are the two gathered angle arrays [8192, 512] (batch row, pair), `th` the seven class angles. One program
writes a flat row of 7168 lanes per batch row, lane l = 14·p + 7·z + c for pair p, observable z and class c; the other a
[8192, 1024, 7] cube at (row, 2·p + z, c). Reshaping the flat rows to the cube sends lane q·7 + c to (q, c). -/

open Idealize.ShloMosaic.ValueIdx

/-- The pair a lane belongs to. -/
def pairOf (l : Fin 7168) : Fin 512 := ⟨l.val / 14, by have := l.isLt; omega⟩
/-- The class a lane belongs to. -/
def classOf (l : Fin 7168) : Fin 7 := ⟨l.val % 7, Nat.mod_lt _ (by decide)⟩
/-- The lane flag: the word of 1.0 on the first seven lanes of each group of fourteen, the word of 0.0 on the rest. -/
def flagOf (l : Fin 7168) : EReal :=
  if l.val % 14 < 7 then Ideal.ofBits .f32 0x3F800000#32 else Ideal.ofBits .f32 0x00000000#32

/-- The flat result: lane `l` of row `r`. -/
def flat (A B : (⟨2, ![8192, 512]⟩ : Shape).Idx → EReal) (th : (⟨1, ![7]⟩ : Shape).Idx → EReal) :
    (⟨2, ![8192, 7168]⟩ : Shape).Idx → EReal := fun j =>
  lane (A (ix2 (j 0) (pairOf (j 1)))) (B (ix2 (j 0) (pairOf (j 1))))
    (Ideal.cos (th (ix1 (classOf (j 1))) * Ideal.ofBits .f32 0x3F000000#32))
    (Ideal.sin (th (ix1 (classOf (j 1))) * Ideal.ofBits .f32 0x3F000000#32)) (flagOf (j 1))

/-- The flat result from the three lane rows as arrays: `ct`, `st` and `zf` are [1, 7168] rows. -/
def flatRows (ct st zf : (⟨2, ![1, 7168]⟩ : Shape).Idx → EReal) (A B : (⟨2, ![8192, 512]⟩ : Shape).Idx → EReal) :
    (⟨2, ![8192, 7168]⟩ : Shape).Idx → EReal := fun j =>
  lane (A (ix2 (j 0) (pairOf (j 1)))) (B (ix2 (j 0) (pairOf (j 1)))) (ct (ix2 (0 : Fin 1) (j 1))) (st (ix2 (0 : Fin 1) (j 1)))
    (zf (ix2 (0 : Fin 1) (j 1)))

/-- When the rows hold cos θ/2, sin θ/2 of the lane's class and the lane flag, that is `flat`. -/
theorem flatRows_eq_flat (ct st zf : (⟨2, ![1, 7168]⟩ : Shape).Idx → EReal) (A B : (⟨2, ![8192, 512]⟩ : Shape).Idx → EReal)
    (th : (⟨1, ![7]⟩ : Shape).Idx → EReal)
    (hct : ∀ l : Fin 7168, ct (ix2 (0 : Fin 1) l) = Ideal.cos (th (ix1 (classOf l)) * Ideal.ofBits .f32 0x3F000000#32))
    (hst : ∀ l : Fin 7168, st (ix2 (0 : Fin 1) l) = Ideal.sin (th (ix1 (classOf l)) * Ideal.ofBits .f32 0x3F000000#32))
    (hzf : ∀ l : Fin 7168, zf (ix2 (0 : Fin 1) l) = flagOf l) :
    flatRows ct st zf A B = flat A B th := by
  funext j
  show lane _ _ (ct (ix2 (0 : Fin 1) (j 1))) (st (ix2 (0 : Fin 1) (j 1))) (zf (ix2 (0 : Fin 1) (j 1))) = lane _ _ _ _ _
  rw [hct (j 1), hst (j 1), hzf (j 1)]

/-- The cube: element (row, 2·p + z, c). -/
def cube (A B : (⟨2, ![8192, 512]⟩ : Shape).Idx → EReal) (th : (⟨1, ![7]⟩ : Shape).Idx → EReal)
    (r : Fin 8192) (p : Fin 512) (z : Fin 2) (c : Fin 7) : EReal :=
  expect (A (ix2 r p)) (B (ix2 r p))
    (Ideal.cos (th (ix1 c) * Ideal.ofBits .f32 0x3F000000#32))
    (Ideal.sin (th (ix1 c) * Ideal.ofBits .f32 0x3F000000#32)) (decide (z.val = 1))

/-- Lane 14·p + 7·z + c of a row of real angles is the cube's element (p, z, c) of that row: the lane belongs to pair
    p and class c, its flag is 1 exactly when z = 0, and unitarity does the rest. -/
theorem flat_eq_cube (A B : (⟨2, ![8192, 512]⟩ : Shape).Idx → EReal) (th : (⟨1, ![7]⟩ : Shape).Idx → EReal)
    (hA : ∀ k, ∃ x : ℝ, A k = (x : EReal)) (hB : ∀ k, ∃ x : ℝ, B k = (x : EReal)) (hth : ∀ k, ∃ x : ℝ, th k = (x : EReal))
    (r : Fin 8192) (p : Fin 512) (z : Fin 2) (c : Fin 7) (l : Fin 7168) (hl : l.val = 14 * p.val + 7 * z.val + c.val) :
    flat A B th (ix2 r l) = cube A B th r p z c := by
  have hp : pairOf l = p := Fin.ext (by show l.val / 14 = p.val; have := z.isLt; have := c.isLt; omega)
  have hc : classOf l = c := Fin.ext (by show l.val % 7 = c.val; have := z.isLt; have := c.isLt; omega)
  obtain ⟨a, ha⟩ := hA (ix2 r p)
  obtain ⟨b, hb⟩ := hB (ix2 r p)
  obtain ⟨t, ht⟩ := hth (ix1 c)
  show lane (A (ix2 r (pairOf l))) (B (ix2 r (pairOf l))) _ _ (flagOf l) = _
  unfold cube
  rw [hp, hc, ha, hb, ht]
  by_cases hz : z.val = 1
  · have hf : flagOf l = Ideal.ofBits .f32 0x00000000#32 := by
      unfold flagOf; rw [if_neg (by have := c.isLt; omega)]
    rw [hf, decide_eq_true hz]
    exact lane_zero a b t
  · have hz0 : z.val = 0 := by have := z.isLt; omega
    have hf : flagOf l = Ideal.ofBits .f32 0x3F800000#32 := by
      unfold flagOf; rw [if_pos (by have := c.isLt; omega)]
    rw [hf, decide_eq_false hz]
    exact lane_one a b t

end Cert.Circuit

end
-- ==== Proof.LayoutReads.lean ====
/-
  The layout operations of the two programs, read at an index, over their literal shapes.

  * a [16, 512] block repeated fourteen times along the lanes (reshape to [16, 512, 1], broadcast to [16, 512, 14],
    reshape to [16, 7168]): lane l reads column l / 14;
  * a [1, 7168] row broadcast over sixteen sublanes: (r, l) reads (0, l);
  * a vector of fourteen tiled 512 times into a [1, 7168] row (reshape to [1, 14], broadcast to [512, 14], reshape to
    [7168], broadcast to [1, 7168]): lane l reads entry l % 14;
  * two vectors of seven joined into fourteen: entry k reads the first at k below seven, the second at k − 7 from seven on;
  * a [8192, 7168] array reshaped to [8192, 1024, 7]: (r, q, c) reads (r, 7·q + c).
-/
import Idealize.ShloMosaic.Lib.Pipeline.Value
import Idealize.ShloMosaic.Lib.ValueIdx

noncomputable section

namespace Cert.Circuit.Layout

open Idealize.ShloMosaic Idealize.ShloMosaic.ValueIdx

variable {α : Type}

/-- Fourteen copies of each column along the lanes: lane `l` of row `r` reads column `l / 14`. -/
theorem repeat14_apply (v : (⟨2, ![16, 512]⟩ : Shape).Idx → α)
    (h1 : (⟨2, ![16, 512]⟩ : Shape).ShapeCasts ⟨3, ![16, 512, 1]⟩)
    (h2 : (⟨3, ![16, 512, 1]⟩ : Shape).Broadcasts ⟨3, ![16, 512, 14]⟩)
    (h3 : (⟨3, ![16, 512, 14]⟩ : Shape).ShapeCasts ⟨2, ![16, 7168]⟩)
    (r : Fin 16) (l : Fin 7168) (p : Fin 512) (hp : p.val = l.val / 14) :
    shapeCast ⟨2, ![16, 7168]⟩ (broadcastTo ⟨3, ![16, 512, 14]⟩ (shapeCast ⟨3, ![16, 512, 1]⟩ v h1) h2) h3 (ix2 r l)
      = v (ix2 r p) := by
  have hl := l.isLt
  rw [shapeCast_apply _ h3 (ix2 r l) (ix3 r p (⟨l.val % 14, Nat.mod_lt _ (by decide)⟩ : Fin 14))
    (by rw [Shape.rowMajor_val_three, Shape.rowMajor_val_two]
        show (r.val * 512 + p.val) * 14 + l.val % 14 = r.val * 7168 + l.val
        omega)]
  rw [broadcastTo_apply _ h2 _ (ix3 r p (0 : Fin 1)) (fun a => match a with
    | ⟨0, _⟩ => by show r.val = if (16 : Nat) = 1 then 0 else r.val; rw [if_neg (by decide)]
    | ⟨1, _⟩ => by show p.val = if (512 : Nat) = 1 then 0 else p.val; rw [if_neg (by decide)]
    | ⟨2, _⟩ => by show 0 = if (1 : Nat) = 1 then 0 else l.val % 14; rw [if_pos rfl])]
  exact shapeCast_apply v h1 _ (ix2 r p)
    (by rw [Shape.rowMajor_val_three, Shape.rowMajor_val_two]
        show r.val * 512 + p.val = (r.val * 512 + p.val) * 1 + 0
        omega)

/-- A row broadcast over the sublanes: (r, l) reads (0, l). -/
theorem row16_apply (v : (⟨2, ![1, 7168]⟩ : Shape).Idx → α)
    (h : (⟨2, ![1, 7168]⟩ : Shape).Broadcasts ⟨2, ![16, 7168]⟩) (r : Fin 16) (l : Fin 7168) :
    broadcastTo ⟨2, ![16, 7168]⟩ v h (ix2 r l) = v (ix2 (0 : Fin 1) l) :=
  broadcastTo_apply v h _ (ix2 (0 : Fin 1) l) (fun a => match a with
    | ⟨0, _⟩ => by show 0 = if (1 : Nat) = 1 then 0 else r.val; rw [if_pos rfl]
    | ⟨1, _⟩ => by show l.val = if (7168 : Nat) = 1 then 0 else l.val; rw [if_neg (by decide)])

/-- A vector of fourteen tiled 512 times into one row: lane `l` reads entry `l % 14`. -/
theorem tile14_apply (u : (⟨1, ![14]⟩ : Shape).Idx → α)
    (h1 : (⟨1, ![14]⟩ : Shape).ShapeCasts ⟨2, ![1, 14]⟩)
    (h2 : (⟨2, ![1, 14]⟩ : Shape).BroadcastsInDim ⟨2, ![512, 14]⟩ ![0, 1])
    (h3 : (⟨2, ![512, 14]⟩ : Shape).ShapeCasts ⟨1, ![7168]⟩)
    (h4 : (⟨1, ![7168]⟩ : Shape).BroadcastsInDim ⟨2, ![1, 7168]⟩ ![1])
    (l : Fin 7168) (k : Fin 14) (hk : k.val = l.val % 14) :
    broadcastInDim ⟨2, ![1, 7168]⟩ ![1] h4
        (shapeCast ⟨1, ![7168]⟩ (broadcastInDim ⟨2, ![512, 14]⟩ ![0, 1] h2 (shapeCast ⟨2, ![1, 14]⟩ u h1)) h3)
        (ix2 (0 : Fin 1) l) = u (ix1 k) := by
  have hl := l.isLt
  rw [broadcastInDim_apply _ h4 _ _ (ix1 l) (fun a => match a with
    | ⟨0, _⟩ => by show l.val = if (7168 : Nat) = 1 then 0 else l.val; rw [if_neg (by decide)])]
  rw [shapeCast_apply _ h3 (ix1 l) (ix2 (⟨l.val / 14, by omega⟩ : Fin 512) k)
    (by rw [Shape.rowMajor_val_two, Shape.rowMajor_val_one]
        show l.val / 14 * 14 + k.val = l.val
        omega)]
  rw [broadcastInDim_apply _ h2 _ _ (ix2 (0 : Fin 1) k) (fun a => match a with
    | ⟨0, _⟩ => by show 0 = if (1 : Nat) = 1 then 0 else l.val / 14; rw [if_pos rfl]
    | ⟨1, _⟩ => by show k.val = if (14 : Nat) = 1 then 0 else k.val; rw [if_neg (by decide)])]
  exact shapeCast_apply u h1 _ (ix1 k)
    (by rw [Shape.rowMajor_val_one, Shape.rowMajor_val_two]
        show k.val = 0 * 14 + k.val
        omega)

/-- Two vectors of seven joined: an entry below seven reads the first. -/
theorem join7_left (a b : (⟨1, ![7]⟩ : Shape).Idx → α)
    (h : Shape.Concatenates [(⟨1, ![7]⟩ : Shape), ⟨1, ![7]⟩] ⟨1, ![14]⟩ (0 : Fin 1))
    (k : Fin 14) (c : Fin 7) (hc : c.val = k.val) :
    concatenate ⟨1, ![14]⟩ (0 : Fin 1) [⟨⟨1, ![7]⟩, a⟩, ⟨⟨1, ![7]⟩, b⟩] h (ix1 k) = a (ix1 c) :=
  concatenate_pair_apply_left (0 : Fin 1) a b h (ix1 k) rfl (ix1 c) (fun d => match d with
    | ⟨0, _⟩ => hc)

/-- Two vectors of seven joined: an entry from seven on reads the second, seven lower. -/
theorem join7_right (a b : (⟨1, ![7]⟩ : Shape).Idx → α)
    (h : Shape.Concatenates [(⟨1, ![7]⟩ : Shape), ⟨1, ![7]⟩] ⟨1, ![14]⟩ (0 : Fin 1))
    (k : Fin 14) (c : Fin 7) (hc : c.val + 7 = k.val) :
    concatenate ⟨1, ![14]⟩ (0 : Fin 1) [⟨⟨1, ![7]⟩, a⟩, ⟨⟨1, ![7]⟩, b⟩] h (ix1 k) = b (ix1 c) :=
  concatenate_pair_apply_right (0 : Fin 1) a b h (ix1 k) rfl rfl (ix1 c)
    (fun d hd => absurd (Subsingleton.elim _ _) hd) (by show c.val + 7 = k.val; exact hc)

/-- The flat rows reshaped to the cube: (r, q, c) reads lane 7·q + c of row r. -/
theorem cube_apply (v : (⟨2, ![8192, 7168]⟩ : Shape).Idx → α)
    (h : (⟨2, ![8192, 7168]⟩ : Shape).ShapeCasts ⟨3, ![8192, 1024, 7]⟩)
    (r : Fin 8192) (q : Fin 1024) (c : Fin 7) (l : Fin 7168) (hl : l.val = 7 * q.val + c.val) :
    shapeCast ⟨3, ![8192, 1024, 7]⟩ v h (ix3 r q c) = v (ix2 r l) :=
  shapeCast_apply v h _ (ix2 r l)
    (by rw [Shape.rowMajor_val_three, Shape.rowMajor_val_two]
        show r.val * 7168 + l.val = (r.val * 1024 + q.val) * 7 + c.val
        omega)

end Cert.Circuit.Layout

end
-- ==== Proof.PreFacts.lean ====
/-
  The precondition, decoded: every entry of x and of theta is a real number (its absolute value is below +∞), and every
  entry of pair_indices is a valid pixel index, 0 ≤ index < 1024 as signed words.
-/
import proofs.«400467_j89816356094179_4_alg».proof.Pre_finite_inputs
import proofs.«400467_j89816356094179_4_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.Circuit.Pre

open Idealize.ShloMosaic Idealize.ShloMosaic.ValueIdx Cert.Pre_finite_inputs

instance : Subsingleton S_.Idx := ⟨fun _ _ => funext fun d => d.elim0⟩

/-- An extended real whose absolute value compares below the word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  change BitVec.ofBool (decide (max x (-x) < ⊤)) = 1#1 at h
  rw [StableHlo.Predicate.ofBool_eq_one_iff] at h
  have h' : max x (-x) < ⊤ := of_decide_eq_true h
  induction x using EReal.rec with
  | bot => simp at h'
  | coe r => exact ⟨r, rfl⟩
  | top => simp at h'

/-- What the precondition says of the three arguments. -/
theorem decode (x : FVec Ideal S8192x1x32x32 .f32) (pi : IVec S512x2 32) (th : FVec Ideal S7 .f32)
    (h : fn (F := Ideal) x pi th = fun _ => 1#1) :
    (∀ i, ∃ r : ℝ, x i = (r : EReal)) ∧ (∀ i, ∃ r : ℝ, th i = (r : EReal))
      ∧ (∀ i, IntOp.cmpi .sge (pi i) 0#32 = 1#1) ∧ (∀ i, IntOp.cmpi .slt (pi i) 1024#32 = 1#1) := by
  have e := congrFun h ix0
  dsimp only [fn, fn_part1] at e
  obtain ⟨e123, e4⟩ := IntOp.andi_eq_one.1 e
  obtain ⟨e12, e3⟩ := IntOp.andi_eq_one.1 e123
  obtain ⟨e1, e2⟩ := IntOp.andi_eq_one.1 e12
  refine ⟨fun i => real_of_abs_lt _ (Host.reduce_andi_all _ _ _ _ ix0 e1 i),
    fun i => real_of_abs_lt _ (Host.reduce_andi_all _ _ _ _ ix0 e2 i),
    fun i => Host.reduce_andi_all _ _ _ _ ix0 e3 i, fun i => Host.reduce_andi_all _ _ _ _ ix0 e4 i⟩

/-- An `and`-reduction of all ones from one is one. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih => rw [List.foldl_cons, hx a]; exact ih

/-- A word in [0, 1024) as a signed integer. -/
theorem toNat_lt (w : BitVec 32) (h0 : IntOp.cmpi .sge w 0#32 = 1#1) (h1 : IntOp.cmpi .slt w 1024#32 = 1#1) :
    w.toNat < 1024 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- For a word in [0, 1024): it is not negative, so index normalisation leaves it alone, and the bounds test of the
    filling gather, 0 ≤ w ≤ 1023, passes. -/
theorem word_tests (w : BitVec 32) (hw : w.toNat < 1024) :
    IntOp.cmpi .slt w 0#32 = 0#1 ∧ IntOp.cmpi .sge w 0#32 = 1#1 ∧ IntOp.cmpi .sle w 1023#32 = 1#1 := by
  have h0 : (0#32 : BitVec 32).toNat = 0 := rfl
  have h1 : (1023#32 : BitVec 32).toNat = 1023 := rfl
  refine ⟨eq_zero_of_ne_one fun h => ?_, ?_, ?_⟩
  · have := (StableHlo.Predicate.slt_iff_toNat (by omega) (by omega)).1 h
    omega
  · exact (StableHlo.Predicate.sge_iff_toNat (by omega) (by omega)).2 (by omega)
  · exact (StableHlo.Predicate.sle_iff_toNat (by omega) (by omega)).2 (by omega)

end Cert.Circuit.Pre

end
-- ==== Proof.KernelBody.lean ====
/-
  One element of the block the kernel body stores, at the extended reals: element (r, l) of the [16, 7168] output block
  is the lane arithmetic of the two angle blocks at (r, l / 14) and of the three lane rows (cos θ/2, sin θ/2 and the 0/1
  flag) at (0, l). The body repeats each per-pair amplitude fourteen times along the lanes and broadcasts the three rows
  over the sixteen sublanes; everything else is pointwise.
-/
import proofs.«400467_j89816356094179_4_alg».proof.Proof.Gen.KernelIdeal.Frame
import proofs.«400467_j89816356094179_4_alg».proof.Proof.CircuitAlgebra
import proofs.«400467_j89816356094179_4_alg».proof.Proof.LayoutReads
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe Idealize.ShloMosaic.ValueIdx
open Cert.Circuit

theorem hz : (![0, 0] : Fin 2 → Nat) = fun _ => 0 := funext fun a => by fin_cases a <;> rfl

/-- cos of half the first angle, at a block element. -/
theorem cosA_at (v0 : Vec Ideal S16x512 .f32) (i : S16x512.Idx) :
    k0_pay4 v0 i = Ideal.cos (v0 i * Ideal.ofBits .f32 0x3F000000#32) := by
  unfold k0_pay4 k0_pay2; rw [shapeCast_self]; rfl
/-- sin of half the first angle. -/
theorem sinA_at (v0 : Vec Ideal S16x512 .f32) (i : S16x512.Idx) :
    k0_pay5 v0 i = Ideal.sin (v0 i * Ideal.ofBits .f32 0x3F000000#32) := by
  unfold k0_pay5 k0_pay2; rw [shapeCast_self]; rfl
/-- cos of half the second angle. -/
theorem cosB_at (v2 : Vec Ideal S16x512 .f32) (i : S16x512.Idx) :
    k0_pay6 v2 i = Ideal.cos (v2 i * Ideal.ofBits .f32 0x3F000000#32) := by
  unfold k0_pay6 k0_pay3; rw [shapeCast_self]; rfl
/-- sin of half the second angle. -/
theorem sinB_at (v2 : Vec Ideal S16x512 .f32) (i : S16x512.Idx) :
    k0_pay7 v2 i = Ideal.sin (v2 i * Ideal.ofBits .f32 0x3F000000#32) := by
  unfold k0_pay7 k0_pay3; rw [shapeCast_self]; rfl

/-- The amplitude ca·sb repeated along the lanes. -/
theorem amp1_at (v0 v2 : Vec Ideal S16x512 .f32) (r : Fin 16) (l : Fin 7168) :
    k0_pay8 v0 v2 (ix2 r l) = k0_pay4 v0 (ix2 r (pairOf l)) * k0_pay7 v2 (ix2 r (pairOf l)) := by
  unfold k0_pay8
  exact Layout.repeat14_apply _ _ _ _ r l (pairOf l) rfl
/-- The amplitude sa·sb repeated along the lanes. -/
theorem amp2_at (v0 v2 : Vec Ideal S16x512 .f32) (r : Fin 16) (l : Fin 7168) :
    k0_pay9 v0 v2 (ix2 r l) = k0_pay5 v0 (ix2 r (pairOf l)) * k0_pay7 v2 (ix2 r (pairOf l)) := by
  unfold k0_pay9
  exact Layout.repeat14_apply _ _ _ _ r l (pairOf l) rfl
/-- The amplitude sa·cb repeated along the lanes. -/
theorem amp3_at (v0 v2 : Vec Ideal S16x512 .f32) (r : Fin 16) (l : Fin 7168) :
    k0_pay10 v0 v2 (ix2 r l) = k0_pay5 v0 (ix2 r (pairOf l)) * k0_pay6 v2 (ix2 r (pairOf l)) := by
  unfold k0_pay10
  exact Layout.repeat14_apply _ _ _ _ r l (pairOf l) rfl

/-- n1 = ct·amp1 − st·amp3 at a lane. -/
theorem n1_at (v0 v2 : Vec Ideal S16x512 .f32) (v32 v34 : Vec Ideal S1x7168 .f32) (r : Fin 16) (l : Fin 7168) :
    k0_pay14 v0 v2 v32 v34 (ix2 r l)
      = v32 (ix2 (0 : Fin 1) l) * k0_pay8 v0 v2 (ix2 r l) - v34 (ix2 (0 : Fin 1) l) * k0_pay10 v0 v2 (ix2 r l) := by
  unfold k0_pay14 k0_pay11 k0_pay12
  simp only [shapeCast_self]
  show broadcastTo S16x7168 v32 _ (ix2 r l) * _ - broadcastTo S16x7168 v34 _ (ix2 r l) * _ = _
  rw [Layout.row16_apply, Layout.row16_apply]

/-- st·amp0 at a lane. -/
theorem stamp0_at (v0 v2 : Vec Ideal S16x512 .f32) (v34 : Vec Ideal S1x7168 .f32) (r : Fin 16) (l : Fin 7168) :
    k0_pay15 v0 v2 v34 (ix2 r l)
      = v34 (ix2 (0 : Fin 1) l) * (k0_pay4 v0 (ix2 r (pairOf l)) * k0_pay6 v2 (ix2 r (pairOf l))) := by
  unfold k0_pay15 k0_pay12
  simp only [shapeCast_self]
  show broadcastTo S16x7168 v34 _ (ix2 r l) * shapeCast S16x7168 _ _ (ix2 r l) = _
  rw [Layout.row16_apply, Layout.repeat14_apply _ _ _ _ r l (pairOf l) rfl]
  rfl

/-- THE STORED BLOCK at (r, l): the lane arithmetic of the angle blocks at (r, l / 14) and the three rows at (0, l). -/
theorem out_apply (x0 x1 x2 : Vec Ideal S1x7168 .f32) (x3 x4 : Vec Ideal S16x512 .f32) (r : Fin 16) (l : Fin 7168) :
    out0_5 x0 x1 x2 x3 x4 (ix2 r l)
      = lane (x3 (ix2 r (pairOf l))) (x4 (ix2 r (pairOf l))) (x0 (ix2 (0 : Fin 1) l)) (x1 (ix2 (0 : Fin 1) l))
          (x2 (ix2 (0 : Fin 1) l)) := by
  unfold out0_5
  rw [View.canon_unit_zero hz]
  simp only [View.ld_unit_zero (S := S16x512) hz, View.ld_unit_zero (S := S1x7168) hz]
  unfold k0_pay1 k0_pay11 k0_pay12 k0_pay13
  simp only [shapeCast_self]
  show (Ideal.ofBits .f32 0x3F800000#32
        - (broadcastTo S16x7168 x1 _ (ix2 r l) * k0_pay8 x3 x4 (ix2 r l)
            + broadcastTo S16x7168 x0 _ (ix2 r l) * k0_pay10 x3 x4 (ix2 r l))
          * (broadcastTo S16x7168 x1 _ (ix2 r l) * k0_pay8 x3 x4 (ix2 r l)
            + broadcastTo S16x7168 x0 _ (ix2 r l) * k0_pay10 x3 x4 (ix2 r l)))
      - (broadcastTo S16x7168 x2 _ (ix2 r l)
            * ((k0_pay15 x3 x4 x1 (ix2 r l) + broadcastTo S16x7168 x0 _ (ix2 r l) * k0_pay9 x3 x4 (ix2 r l))
              * (k0_pay15 x3 x4 x1 (ix2 r l) + broadcastTo S16x7168 x0 _ (ix2 r l) * k0_pay9 x3 x4 (ix2 r l)))
          + broadcastTo S16x7168 (subf (broadcast S1x7168 (Ideal.ofBits .f32 0x3F800000#32)) x2) _ (ix2 r l)
            * (k0_pay14 x3 x4 x0 x1 (ix2 r l) * k0_pay14 x3 x4 x0 x1 (ix2 r l))) = _
  simp only [Layout.row16_apply, n1_at, stamp0_at, amp1_at, amp2_at, amp3_at, cosA_at, sinA_at, cosB_at, sinB_at]
  rfl

end Cert.KernelIdeal.Body

end
-- ==== Proof.KernelHost.lean ====
/-
  What the kernel's host operations before the region leave in the five arrays the region stages.

  The angle arrays: pair_indices' column k, with negative entries wrapped by 1024, gathers columns of x reshaped to
  [8192, 1024]; entries whose wrapped index falls outside 0 … 1023 are replaced by a NaN word. For indices in
  0 … 1023 nothing is wrapped and nothing replaced: the array is the plain gather.

  The lane rows: cos(θ/2) (and sin(θ/2)) doubled to fourteen entries and tiled 512 times, and the flag row, seven ones then
  seven zeros, tiled likewise.
-/
import proofs.«400467_j89816356094179_4_alg».proof.Proof.Gen.KernelIdeal.Frame
import proofs.«400467_j89816356094179_4_alg».proof.Proof.CircuitAlgebra
import proofs.«400467_j89816356094179_4_alg».proof.Proof.LayoutReads
import proofs.«400467_j89816356094179_4_alg».proof.Proof.PreFacts
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo
open Cert.Circuit

/-- Column 0 of pair_indices, as a vector of 512 words. -/
abbrev col0 (pi : IVec S512x2 32) : IVec S512 32 :=
  shapeCast S512 (extractStridedSlice S512x1 ![0, 0] pi slices_S512x2_S512x1_0_0) shapeCasts_S512x1_S512
/-- Column 1 of pair_indices. -/
abbrev col1 (pi : IVec S512x2 32) : IVec S512 32 :=
  shapeCast S512 (extractStridedSlice S512x1 ![0, 1] pi slices_S512x2_S512x1_0_1) shapeCasts_S512x1_S512

/-- The start indices of the gather: a negative word has 1024 added. -/
abbrev wrapped (idx : IVec S512 32) : IVec S512x1 32 :=
  broadcastInDim S512x1 ![0] bcast_S512_S512x1_0
    (select (cmpi .slt idx (broadcastInDim S512 ![] bcast_S_S512 (constantI S_ 32 0#32)))
      (addi idx (broadcastInDim S512 ![] bcast_S_S512 (constantI S_ 32 1024#32))) idx)

/-- The bounds test of the filling gather, per pair, broadcast over the rows: 0 ≤ wrapped index ≤ 1023. -/
abbrev inBounds (idx : IVec S512 32) : IVec S8192x512 1 :=
  broadcastInDim S8192x512 ![1] bcast_S512_S8192x512_1
    (Host.reduce IntOp.andi
      (andi (cmpi .sge (wrapped idx) (broadcastInDim S512x1 ![] bcast_S_S512x1 (constantI S_ 32 0#32)))
        (cmpi .sle (wrapped idx)
          (broadcastInDim S512x1 ![0, 1] bcast_S1x1_S512x1_0_1 (broadcastInDim S1x1 ![1] bcast_S1_S1x1_1 (constantI S1 32 1023#32)))))
      (constantI S_ 1 1#1) reducesTo_S512x1_S512_d1 h_S_)

/-- The plain gather of columns of x (as [8192, 1024]) at the wrapped indices. -/
abbrev gathered (x : FVec Ideal S8192x1x32x32 .f32) (idx : IVec S512 32) : FVec Ideal S8192x512 .f32 :=
  Host.gather gather_S8192x1024_S512x1_S8192x512_0_1_n_n_1_1_81921
    (shapeCast S8192x1024 x shapeCasts_S8192x1x32x32_S8192x1024) (wrapped idx)

/-- The filling gather: the plain gather where in bounds, the NaN word elsewhere. -/
abbrev taken (x : FVec Ideal S8192x1x32x32 .f32) (idx : IVec S512 32) : FVec Ideal S8192x512 .f32 :=
  select (inBounds idx) (gathered x idx) (broadcastInDim S8192x512 ![] bcast_S_S8192x512 (constant S_ .f32 0x7FC00000#32))

variable (m : (ℓ : Loc nD τ sig) → Buf (Elt Ideal) ℓ)

/-- The three arguments as launched, at their literal types. -/
abbrev argX (c : Dev nD) : FVec Ideal S8192x1x32x32 .f32 := m ((c : Thread nD τ).loc main_arg0)
abbrev argPairs (c : Dev nD) : IVec S512x2 32 := m ((c : Thread nD τ).loc main_arg1)
abbrev argTheta (c : Dev nD) : FVec Ideal S7 .f32 := m ((c : Thread nD τ).loc main_arg2)

/-- The first angle array as the region finds it. -/
theorem angA_host (c : Dev nD) :
    (V m c main_v3 : S8192x512.Idx → EReal)
      = taken (argX m c) (col0 (argPairs m c)) := by
  dsimp only [V, V0]
  simp only [hostOps0, hostOps0_1, hostOps0_2, hostOps0_3, hostOps0_4, List.flatten_cons, List.flatten_nil,
    List.append_nil, List.cons_append, List.nil_append]
  after_results_simp
  rfl

/-- The second angle array as the region finds it. -/
theorem angB_host (c : Dev nD) :
    (V m c main_v6 : S8192x512.Idx → EReal)
      = taken (argX m c) (col1 (argPairs m c)) := by
  dsimp only [V, V0]
  simp only [hostOps0, hostOps0_1, hostOps0_2, hostOps0_3, hostOps0_4, List.flatten_cons, List.flatten_nil,
    List.append_nil, List.cons_append, List.nil_append]
  after_results_simp
  rfl

set_option maxHeartbeats 1000000 in
/-- cos(θ/2) of the lane's class, in the first lane row. -/
theorem ct_at (c : Dev nD) (l : Fin 7168) :
    (V m c main_v21 : S1x7168.Idx → EReal) (ix2 (0 : Fin 1) l)
      = Ideal.cos (argTheta m c (ix1 (classOf l)) * Ideal.ofBits .f32 0x3F000000#32) := by
  have hl := l.isLt
  dsimp only [V, V0]
  simp only [hostOps0, hostOps0_1, hostOps0_2, hostOps0_3, hostOps0_4, List.flatten_cons, List.flatten_nil,
    List.append_nil, List.cons_append, List.nil_append]
  after_results
  refine (Layout.tile14_apply _ _ _ _ _ l ⟨l.val % 14, Nat.mod_lt _ (by decide)⟩ rfl).trans ?_
  by_cases h7 : l.val % 14 < 7
  · refine (Layout.join7_left _ _ _ _ (classOf l) (by show l.val % 7 = l.val % 14; omega)).trans ?_
    rfl
  · refine (Layout.join7_right _ _ _ _ (classOf l) (by show l.val % 7 + 7 = l.val % 14; omega)).trans ?_
    rfl

set_option maxHeartbeats 1000000 in
/-- sin(θ/2) of the lane's class, in the second lane row. -/
theorem st_at (c : Dev nD) (l : Fin 7168) :
    (V m c main_v25 : S1x7168.Idx → EReal) (ix2 (0 : Fin 1) l)
      = Ideal.sin (argTheta m c (ix1 (classOf l)) * Ideal.ofBits .f32 0x3F000000#32) := by
  have hl := l.isLt
  dsimp only [V, V0]
  simp only [hostOps0, hostOps0_1, hostOps0_2, hostOps0_3, hostOps0_4, List.flatten_cons, List.flatten_nil,
    List.append_nil, List.cons_append, List.nil_append]
  after_results
  refine (Layout.tile14_apply _ _ _ _ _ l ⟨l.val % 14, Nat.mod_lt _ (by decide)⟩ rfl).trans ?_
  by_cases h7 : l.val % 14 < 7
  · refine (Layout.join7_left _ _ _ _ (classOf l) (by show l.val % 7 = l.val % 14; omega)).trans ?_
    rfl
  · refine (Layout.join7_right _ _ _ _ (classOf l) (by show l.val % 7 + 7 = l.val % 14; omega)).trans ?_
    rfl

set_option maxHeartbeats 1000000 in
/-- The lane flag, in the third lane row. -/
theorem zf_at (c : Dev nD) (l : Fin 7168) :
    (V m c main_v29 : S1x7168.Idx → EReal) (ix2 (0 : Fin 1) l) = flagOf l := by
  have hl := l.isLt
  dsimp only [V, V0]
  simp only [hostOps0, hostOps0_1, hostOps0_2, hostOps0_3, hostOps0_4, List.flatten_cons, List.flatten_nil,
    List.append_nil, List.cons_append, List.nil_append]
  after_results
  refine (Layout.tile14_apply _ _ _ _ _ l ⟨l.val % 14, Nat.mod_lt _ (by decide)⟩ rfl).trans ?_
  unfold flagOf
  by_cases h7 : l.val % 14 < 7
  · rw [if_pos h7]
    refine (Layout.join7_left _ _ _ _ (classOf l) (by show l.val % 7 = l.val % 14; omega)).trans ?_
    rfl
  · rw [if_neg h7]
    refine (Layout.join7_right _ _ _ _ (classOf l) (by show l.val % 7 + 7 = l.val % 14; omega)).trans ?_
    rfl

/-! ## In-range indices: nothing wrapped, nothing filled -/

/-- A column of in-range indices is in range. -/
theorem col0_lt (pi : IVec S512x2 32) (hpi : ∀ i, (pi i).toNat < 1024) (j : S512.Idx) : (col0 pi j).toNat < 1024 := by
  rw [show col0 pi j = pi (ix2 (j 0) (0 : Fin 2)) from
    (shapeCast_apply _ shapeCasts_S512x1_S512 j (ix2 (j 0) (0 : Fin 1))
      (by rw [Shape.rowMajor_val_two, Shape.rowMajor_val_one]; show (j 0).val * 1 + 0 = (j 0).val; omega)).trans
    (extractStridedSlice_apply ![0, 0] pi slices_S512x2_S512x1_0_0 _ (ix2 (j 0) (0 : Fin 2)) (fun a => match a with
      | ⟨0, _⟩ => by show (j 0).val = 0 + (j 0).val; omega
      | ⟨1, _⟩ => by show 0 = 0 + 0; rfl))]
  exact hpi _
theorem col1_lt (pi : IVec S512x2 32) (hpi : ∀ i, (pi i).toNat < 1024) (j : S512.Idx) : (col1 pi j).toNat < 1024 := by
  rw [show col1 pi j = pi (ix2 (j 0) (1 : Fin 2)) from
    (shapeCast_apply _ shapeCasts_S512x1_S512 j (ix2 (j 0) (0 : Fin 1))
      (by rw [Shape.rowMajor_val_two, Shape.rowMajor_val_one]; show (j 0).val * 1 + 0 = (j 0).val; omega)).trans
    (extractStridedSlice_apply ![0, 1] pi slices_S512x2_S512x1_0_1 _ (ix2 (j 0) (1 : Fin 2)) (fun a => match a with
      | ⟨0, _⟩ => by show (j 0).val = 0 + (j 0).val; omega
      | ⟨1, _⟩ => by show 1 = 1 + 0; rfl))]
  exact hpi _

/-- An in-range index is not wrapped. -/
theorem wrapped_at (idx : IVec S512 32) (hidx : ∀ j, (idx j).toNat < 1024) (k : S512x1.Idx) :
    wrapped idx k = idx (ix1 (k 0)) := by
  refine (broadcastInDim_apply _ bcast_S512_S512x1_0 _ k (ix1 (k 0)) (fun a => match a with
    | ⟨0, _⟩ => by show (k 0).val = if (512 : Nat) = 1 then 0 else (k 0).val; rw [if_neg (by decide)])).trans ?_
  show Scalar.select (IntOp.cmpi .slt (idx (ix1 (k 0))) 0#32) _ (idx (ix1 (k 0))) = _
  rw [(Cert.Circuit.Pre.word_tests _ (hidx (ix1 (k 0)))).1, select_zero]

/-- With in-range indices the bounds test passes everywhere. -/
theorem inBounds_one (idx : IVec S512 32) (hidx : ∀ j, (idx j).toNat < 1024) (i : S8192x512.Idx) : inBounds idx i = 1#1 := by
  refine (broadcastInDim_apply _ bcast_S512_S8192x512_1 _ i (ix1 (i 1)) (fun a => match a with
    | ⟨0, _⟩ => by show (i 1).val = if (512 : Nat) = 1 then 0 else (i 1).val; rw [if_neg (by decide)])).trans ?_
  refine Cert.Circuit.Pre.reduce_andi_of_all _ _ _ _ _ rfl (fun k => ?_)
  show IntOp.andi (IntOp.cmpi .sge (wrapped idx k) 0#32) (IntOp.cmpi .sle (wrapped idx k) 1023#32) = 1#1
  rw [wrapped_at idx hidx k]
  obtain ⟨-, h0, h1⟩ := Cert.Circuit.Pre.word_tests _ (hidx (ix1 (k 0)))
  rw [h0, h1]; rfl

/-- So the filling gather is the plain gather. -/
theorem taken_eq (x : FVec Ideal S8192x1x32x32 .f32) (idx : IVec S512 32) (hidx : ∀ j, (idx j).toNat < 1024) :
    taken x idx = gathered x idx := by
  funext i
  show Scalar.select (inBounds idx i) (gathered x idx i) _ = _
  rw [inBounds_one idx hidx i, select_one]

end Cert.KernelIdeal.Host

end
-- ==== Proof.KernelValue.lean ====
/-
  The kernel's result, read off its frame run. Grid point t stores rows 16·t … 16·t + 15 of the flat [8192, 7168]
  output: its two angle blocks are the same rows of the gathered arrays, its three lane rows are the whole [1, 7168] rows,
  so what it writes back is those rows of ONE whole-array function (`flatRows` of the arrays as the region finds them).
  The 512 points' blocks cover every row, so the output array ends at that function; the reshape after the region reads
  it as the [8192, 1024, 7] cube.
-/
import proofs.«400467_j89816356094179_4_alg».proof.Proof.Gen.KernelIdeal.Frame
import proofs.«400467_j89816356094179_4_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Circuit

variable (m : (ℓ : Loc nD τ sig) → Buf (Elt Ideal) ℓ) (ρ : Dev nD → PrngReg)

/-- The five arrays the region stages, as it finds them, at their literal types. -/
abbrev ctRow (c : Dev nD) : Vec Ideal S1x7168 .f32 := V m c main_v21
abbrev stRow (c : Dev nD) : Vec Ideal S1x7168 .f32 := V m c main_v25
abbrev zfRow (c : Dev nD) : Vec Ideal S1x7168 .f32 := V m c main_v29
abbrev angA (c : Dev nD) : Vec Ideal S8192x512 .f32 := V m c main_v3
abbrev angB (c : Dev nD) : Vec Ideal S8192x512 .f32 := V m c main_v6

/-- The whole flat output as one function of those arrays. -/
abbrev flatOut (c : Dev nD) : Vec Ideal S8192x7168 .f32 :=
  flatRows (ctRow m c) (stRow m c) (zfRow m c) (angA m c) (angB m c)

/-- The printed index maps over the grid: the lane rows' block index is (0, 0) at every point; the angle blocks and the
    output block are at (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 512 := by
  exact lt_of_lt_of_eq t.isLt N_0

/-- A lane row's block at any point is the whole row. -/
theorem ct_blk (c : Dev nD) (t : Fin cfg0.N) (l : Fin 7168) :
    (iblk m c 0 t : Vec Ideal S1x7168 .f32) (ix2 (0 : Fin 1) l) = ctRow m c (ix2 (0 : Fin 1) l) := by
  obtain ⟨e0, e1, -⟩ := idx_facts t
  unfold iblk
  rw [View.read_apply]
  show V m c main_v21 _ = V m c main_v21 _
  congr 1
  funext a; apply Fin.ext
  match a with
  | ⟨0, _⟩ => show win0_0.index t (0 : Fin 2) * 1 + 1 * 0 = 0; rw [e0]
  | ⟨1, _⟩ => show win0_0.index t (1 : Fin 2) * 7168 + 1 * l.val = l.val; rw [e1]; omega
theorem st_blk (c : Dev nD) (t : Fin cfg0.N) (l : Fin 7168) :
    (iblk m c 1 t : Vec Ideal S1x7168 .f32) (ix2 (0 : Fin 1) l) = stRow m c (ix2 (0 : Fin 1) l) := by
  obtain ⟨-, -, e0, e1, -⟩ := idx_facts t
  unfold iblk
  rw [View.read_apply]
  show V m c main_v25 _ = V m c main_v25 _
  congr 1
  funext a; apply Fin.ext
  match a with
  | ⟨0, _⟩ => show win0_1.index t (0 : Fin 2) * 1 + 1 * 0 = 0; rw [e0]
  | ⟨1, _⟩ => show win0_1.index t (1 : Fin 2) * 7168 + 1 * l.val = l.val; rw [e1]; omega
theorem zf_blk (c : Dev nD) (t : Fin cfg0.N) (l : Fin 7168) :
    (iblk m c 2 t : Vec Ideal S1x7168 .f32) (ix2 (0 : Fin 1) l) = zfRow m c (ix2 (0 : Fin 1) l) := by
  obtain ⟨-, -, -, -, e0, e1, -⟩ := idx_facts t
  unfold iblk
  rw [View.read_apply]
  show V m c main_v29 _ = V m c main_v29 _
  congr 1
  funext a; apply Fin.ext
  match a with
  | ⟨0, _⟩ => show win0_2.index t (0 : Fin 2) * 1 + 1 * 0 = 0; rw [e0]
  | ⟨1, _⟩ => show win0_2.index t (1 : Fin 2) * 7168 + 1 * l.val = l.val; rw [e1]; omega

/-- An angle block at point t is rows 16·t … 16·t + 15 of its array. -/
theorem angA_blk (c : Dev nD) (t : Fin cfg0.N) (r : Fin 16) (p : Fin 512) (R : Fin 8192) (hR : R.val = 16 * t.val + r.val) :
    (iblk m c 3 t : Vec Ideal S16x512 .f32) (ix2 r p) = angA m c (ix2 R p) := by
  obtain ⟨-, -, -, -, -, -, e0, e1, -⟩ := idx_facts t
  unfold iblk
  rw [View.read_apply]
  show V m c main_v3 _ = V m c main_v3 _
  congr 1
  funext a; apply Fin.ext
  match a with
  | ⟨0, _⟩ => show win0_3.index t (0 : Fin 2) * 16 + 1 * r.val = R.val; rw [e0, hR]; omega
  | ⟨1, _⟩ => show win0_3.index t (1 : Fin 2) * 512 + 1 * p.val = p.val; rw [e1]; omega
theorem angB_blk (c : Dev nD) (t : Fin cfg0.N) (r : Fin 16) (p : Fin 512) (R : Fin 8192) (hR : R.val = 16 * t.val + r.val) :
    (iblk m c 4 t : Vec Ideal S16x512 .f32) (ix2 r p) = angB m c (ix2 R p) := by
  obtain ⟨-, -, -, -, -, -, -, -, e0, e1, -⟩ := idx_facts t
  unfold iblk
  rw [View.read_apply]
  show V m c main_v6 _ = V m c main_v6 _
  congr 1
  funext a; apply Fin.ext
  match a with
  | ⟨0, _⟩ => show win0_4.index t (0 : Fin 2) * 16 + 1 * r.val = R.val; rw [e0, hR]; omega
  | ⟨1, _⟩ => show win0_4.index t (1 : Fin 2) * 512 + 1 * p.val = p.val; rw [e1]; omega

/-- WHAT POINT t WRITES BACK is rows 16·t … 16·t + 15 of `flatOut`. -/
theorem flushed_eq (c : Dev nD) (t : Fin cfg0.N) :
    (dats m 0 c).flushed 5 t = ((cfg0.win 5).blk t).view.read (Elt Ideal) (flatOut m c) := by
  obtain ⟨-, -, -, -, -, -, -, -, -, -, e0, e1⟩ := idx_facts t
  have ht := t_lt t
  show (cfg0.win 5).cut (grid0.coords t) ((dats m 0 c).after 5 t) = _
  rw [after0_5]
  funext j
  obtain ⟨r, l, rfl⟩ : ∃ (r : Fin 16) (l : Fin 7168), j = ix2 r l := ⟨j 0, j 1, eq_ix2 j⟩
  have hr := r.isLt
  have hemb : ((cfg0.win 5).blk t).view.emb (ix2 r l) = ix2 (⟨16 * t.val + r.val, by omega⟩ : Fin 8192) l := by
    funext a; apply Fin.ext
    match a with
    | ⟨0, _⟩ => show win0_5.index t (0 : Fin 2) * 16 + 1 * r.val = 16 * t.val + r.val; rw [e0]; omega
    | ⟨1, _⟩ => show win0_5.index t (1 : Fin 2) * 7168 + 1 * l.val = l.val; rw [e1]; omega
  show out0_5 (iblk m c 0 t) (iblk m c 1 t) (iblk m c 2 t) (iblk m c 3 t) (iblk m c 4 t) (ix2 r l)
      = flatOut m c (((cfg0.win 5).blk t).view.emb (ix2 r l))
  rw [hemb]
  refine (Body.out_apply (iblk m c 0 t) (iblk m c 1 t) (iblk m c 2 t) (iblk m c 3 t) (iblk m c 4 t) r l).trans ?_
  rw [ct_blk m c t l, st_blk m c t l, zf_blk m c t l,
    angA_blk m c t r (pairOf l) ⟨16 * t.val + r.val, by omega⟩ rfl,
    angB_blk m c t r (pairOf l) ⟨16 * t.val + r.val, by omega⟩ rfl]
  rfl

/-- An index of the output array is in point t's block iff each coordinate is in the block's range. -/
theorem mem_blk (t : Fin cfg0.N) (i : S8192x7168.Idx) :
    i ∈ ((cfg0.win 5).blk t).view.set ↔ ∀ a : Fin 2, win0_5.index t a * S16x7168.size a ≤ (i a).val
      ∧ (i a).val < win0_5.index t a * S16x7168.size a + S16x7168.size a := by
  show i ∈ ((View.whole main_v30).slice (win0_5.rect t)).set ↔ _
  rw [View.set_slice_whole, Rect.mem_set_unit]
  exact Iff.rfl

/-- Row R is in the block of point R / 16. -/
theorem cover (i : S8192x7168.Idx) :
    ∃ t : Fin cfg0.N, (cfg0.win 5).flush t = true ∧ i ∈ ((cfg0.win 5).blk t).view.set := by
  have h0 : (i 0).val < 8192 := (i 0).isLt
  have h1 : (i 1).val < 7168 := (i 1).isLt
  let t : Fin cfg0.N := ⟨(i 0).val / 16, by rw [show cfg0.N = 512 from N_0]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 16 ≤ (i 0).val ∧ (i 0).val < win0_5.index t (0 : Fin 2) * 16 + 16
    rw [e0]; show (i 0).val / 16 * 16 ≤ (i 0).val ∧ (i 0).val < (i 0).val / 16 * 16 + 16; omega
  | ⟨1, _⟩ =>
    show win0_5.index t (1 : Fin 2) * 7168 ≤ (i 1).val ∧ (i 1).val < win0_5.index t (1 : Fin 2) * 7168 + 7168
    rw [e1]; omega

/-- THE OUTPUT ARRAY after the region: `flatOut`. -/
theorem final (c : Dev nD) : (dats m 0 c).arrAt 5 cfg0.N = flatOut m c :=
  (dats m 0 c).arrAt_eq_of_cover 5 (flatOut m c) (fun t _ => flushed_eq m c t) cover

/-- The reshape after the region reads the output array as the cube. -/
theorem tail_eq (c : Dev nD) :
    Pipeline.afterTail₀ cfgs (dats m) 0 (V0 m) [hostOps1] c main_v31
      = shapeCast S8192x1024x7 (flatOut m c) shapeCasts_S8192x7168_S8192x1024x7 := by
  unfold Pipeline.afterTail₀
  show StableHlo.after hostOps1 _ (Proc.devRef .tc main_v31) = _
  after_results
  have hw : Pipeline.withArrays (cfgs 0).spec c (V0 m c) (fun w => (dats m 0 c).arrAt w (cfgs 0).N)
      (Proc.devRef .tc main_v30) = flatOut m c :=
    (Pipeline.withArrays_arr spec0 launch0.win.arr_inj c _ _ 5).trans (final m c)
  rw [hw]
  rfl

/-- THE RUN, READ: the result buffer ends at the cube reading of `flatOut`, the arguments unchanged. -/
theorem run : θ_run defs (onTc (τ := τ) (main (F := Ideal))) ⟨m, fun _ => 0, ρ⟩ fun r => ∀ c : Dev nD,
      r.2.mem ((c.tc : Thread nD τ).loc main_v31) = shapeCast S8192x1024x7 (flatOut m c) shapeCasts_S8192x7168_S8192x1024x7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Blocks

end
-- ==== Proof.RefValue.lean ====
/-
  The reference's result, read at an index: element (row, q, c) of its [8192, 1024, 7] result is the cube's element
  (row, q / 2, q % 2, c) of the two gathered angle arrays and theta. The reference computes all four probabilities on
  [8192, 512, 7] arrays, stacks ⟨Z0⟩ and ⟨Z1⟩ along a new axis of extent 2, adds 1, halves, and reshapes (512, 2) to 1024.
-/
import proofs.«400467_j89816356094179_4_alg».proof.Proof.Gen.ReferenceIdeal.Read
import proofs.«400467_j89816356094179_4_alg».proof.Proof.CircuitAlgebra
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Circuit

variable (x0 : (⟨S8192x1x32x32, .f32⟩ : BufTy).Contents (Elt Ideal)) (x1 : (⟨S512x2, .i32⟩ : BufTy).Contents (Elt Ideal))
  (x2 : (⟨S7, .f32⟩ : BufTy).Contents (Elt Ideal))

/-- Two indices with the same coordinates are one index (closes the equations between the composed index maps of the
    layout operations and an index given by its coordinates). -/
macro "idx_rfl" : tactic => `(tactic| (funext a; apply Fin.ext; fin_cases a <;> rfl))

/-- The angle on qubit 0, per (row, pair). -/
abbrev angA : S8192x512.Idx → EReal := val_main_v9 (F := Ideal) x0 x1
/-- The angle on qubit 1, per (row, pair). -/
abbrev angB : S8192x512.Idx → EReal := val_main_v18 (F := Ideal) x0 x1

/-- A gathered angle is an entry of x, so it is a real number when every entry of x is. -/
theorem angA_real (hx : ∀ k, ∃ r : ℝ, x0 k = (r : EReal)) (i : S8192x512.Idx) : ∃ r : ℝ, angA x0 x1 i = (r : EReal) := by
  unfold angA val_main_v9 Host.gather
  rw [val_main_v0_apply]
  exact hx _
theorem angB_real (hx : ∀ k, ∃ r : ℝ, x0 k = (r : EReal)) (i : S8192x512.Idx) : ∃ r : ℝ, angB x0 x1 i = (r : EReal) := by
  unfold angB val_main_v18 Host.gather
  rw [val_main_v0_apply]
  exact hx _

/-- amp0 = cos(a/2)·cos(b/2). -/
theorem amp0_at (i : S8192x512.Idx) : val_main_v31 (F := Ideal) x0 x1 i
    = Ideal.cos (angA x0 x1 i * Ideal.ofBits .f32 0x3F000000#32) * Ideal.cos (angB x0 x1 i * Ideal.ofBits .f32 0x3F000000#32) := by
  simp only [val_main_v31_apply, val_main_v21_apply, val_main_v27_apply, val_main_v20_apply, val_main_v26_apply,
    val_main_v19_apply, val_main_v25_apply, val_main_cst_apply, val_main_cst_4_apply]
  rfl
/-- amp1 = cos(a/2)·sin(b/2). -/
theorem amp1_at (i : S8192x512.Idx) : val_main_v33 (F := Ideal) x0 x1 i
    = Ideal.cos (angA x0 x1 i * Ideal.ofBits .f32 0x3F000000#32) * Ideal.sin (angB x0 x1 i * Ideal.ofBits .f32 0x3F000000#32) := by
  simp only [val_main_v33_apply, val_main_v21_apply, val_main_v30_apply, val_main_v20_apply, val_main_v29_apply,
    val_main_v19_apply, val_main_v28_apply, val_main_cst_apply, val_main_cst_5_apply]
  rfl
/-- amp2 = sin(a/2)·sin(b/2). -/
theorem amp2_at (i : S8192x512.Idx) : val_main_v35 (F := Ideal) x0 x1 i
    = Ideal.sin (angA x0 x1 i * Ideal.ofBits .f32 0x3F000000#32) * Ideal.sin (angB x0 x1 i * Ideal.ofBits .f32 0x3F000000#32) := by
  simp only [val_main_v35_apply, val_main_v24_apply, val_main_v30_apply, val_main_v23_apply, val_main_v29_apply,
    val_main_v22_apply, val_main_v28_apply, val_main_cst_3_apply, val_main_cst_5_apply]
  rfl
/-- amp3 = sin(a/2)·cos(b/2). -/
theorem amp3_at (i : S8192x512.Idx) : val_main_v37 (F := Ideal) x0 x1 i
    = Ideal.sin (angA x0 x1 i * Ideal.ofBits .f32 0x3F000000#32) * Ideal.cos (angB x0 x1 i * Ideal.ofBits .f32 0x3F000000#32) := by
  simp only [val_main_v37_apply, val_main_v24_apply, val_main_v27_apply, val_main_v23_apply, val_main_v26_apply,
    val_main_v22_apply, val_main_v25_apply, val_main_cst_3_apply, val_main_cst_4_apply]
  rfl
/-- ct = cos(θ/2). -/
theorem ct_at (i : S7.Idx) : val_main_v41 (F := Ideal) x2 i = Ideal.cos (x2 i * Ideal.ofBits .f32 0x3F000000#32) := by
  simp only [val_main_v41_apply, val_main_v40_apply, val_main_v39_apply, val_main_cst_6_apply]
  rfl
/-- st = sin(θ/2). -/
theorem st_at (i : S7.Idx) : val_main_v44 (F := Ideal) x2 i = Ideal.sin (x2 i * Ideal.ofBits .f32 0x3F000000#32) := by
  simp only [val_main_v44_apply, val_main_v43_apply, val_main_v42_apply, val_main_cst_7_apply]
  rfl

variable (b : Fin 8192) (p : Fin 512) (c : Fin 7)

/-- n0 = ct·amp0 − st·amp2 at (row, pair, class). -/
theorem n0_at : val_main_v53 (F := Ideal) x0 x1 x2 (ix3 b p c)
    = val_main_v41 (F := Ideal) x2 (ix1 c) * val_main_v31 (F := Ideal) x0 x1 (ix2 b p)
      - val_main_v44 (F := Ideal) x2 (ix1 c) * val_main_v35 (F := Ideal) x0 x1 (ix2 b p) := by
  simp only [val_main_v53_apply, val_main_v48_apply, val_main_v52_apply, val_main_v46_apply, val_main_v47_apply,
    val_main_v50_apply, val_main_v51_apply, val_main_v45_apply, val_main_v32_apply, val_main_v49_apply, val_main_v36_apply]
  rw [show idx_main_v45 (idx_main_v46 (ix3 b p c)) = ix1 c from by idx_rfl,
    show idx_main_v32 (idx_main_v47 (ix3 b p c)) = ix2 b p from by idx_rfl,
    show idx_main_v49 (idx_main_v50 (ix3 b p c)) = ix1 c from by idx_rfl,
    show idx_main_v36 (idx_main_v51 (ix3 b p c)) = ix2 b p from by idx_rfl]
  rfl
/-- n2 = st·amp0 + ct·amp2. -/
theorem n2_at : val_main_v62 (F := Ideal) x0 x1 x2 (ix3 b p c)
    = val_main_v44 (F := Ideal) x2 (ix1 c) * val_main_v31 (F := Ideal) x0 x1 (ix2 b p)
      + val_main_v41 (F := Ideal) x2 (ix1 c) * val_main_v35 (F := Ideal) x0 x1 (ix2 b p) := by
  simp only [val_main_v62_apply, val_main_v57_apply, val_main_v61_apply, val_main_v55_apply, val_main_v56_apply,
    val_main_v59_apply, val_main_v60_apply, val_main_v54_apply, val_main_v32_apply, val_main_v58_apply, val_main_v36_apply]
  rw [show idx_main_v54 (idx_main_v55 (ix3 b p c)) = ix1 c from by idx_rfl,
    show idx_main_v32 (idx_main_v56 (ix3 b p c)) = ix2 b p from by idx_rfl,
    show idx_main_v58 (idx_main_v59 (ix3 b p c)) = ix1 c from by idx_rfl,
    show idx_main_v36 (idx_main_v60 (ix3 b p c)) = ix2 b p from by idx_rfl]
  rfl
/-- n1 = ct·amp1 − st·amp3. -/
theorem n1_at : val_main_v71 (F := Ideal) x0 x1 x2 (ix3 b p c)
    = val_main_v41 (F := Ideal) x2 (ix1 c) * val_main_v33 (F := Ideal) x0 x1 (ix2 b p)
      - val_main_v44 (F := Ideal) x2 (ix1 c) * val_main_v37 (F := Ideal) x0 x1 (ix2 b p) := by
  simp only [val_main_v71_apply, val_main_v66_apply, val_main_v70_apply, val_main_v64_apply, val_main_v65_apply,
    val_main_v68_apply, val_main_v69_apply, val_main_v63_apply, val_main_v34_apply, val_main_v67_apply, val_main_v38_apply]
  rw [show idx_main_v63 (idx_main_v64 (ix3 b p c)) = ix1 c from by idx_rfl,
    show idx_main_v34 (idx_main_v65 (ix3 b p c)) = ix2 b p from by idx_rfl,
    show idx_main_v67 (idx_main_v68 (ix3 b p c)) = ix1 c from by idx_rfl,
    show idx_main_v38 (idx_main_v69 (ix3 b p c)) = ix2 b p from by idx_rfl]
  rfl
/-- n3 = st·amp1 + ct·amp3. -/
theorem n3_at : val_main_v80 (F := Ideal) x0 x1 x2 (ix3 b p c)
    = val_main_v44 (F := Ideal) x2 (ix1 c) * val_main_v33 (F := Ideal) x0 x1 (ix2 b p)
      + val_main_v41 (F := Ideal) x2 (ix1 c) * val_main_v37 (F := Ideal) x0 x1 (ix2 b p) := by
  simp only [val_main_v80_apply, val_main_v75_apply, val_main_v79_apply, val_main_v73_apply, val_main_v74_apply,
    val_main_v77_apply, val_main_v78_apply, val_main_v72_apply, val_main_v34_apply, val_main_v76_apply, val_main_v38_apply]
  rw [show idx_main_v72 (idx_main_v73 (ix3 b p c)) = ix1 c from by idx_rfl,
    show idx_main_v34 (idx_main_v74 (ix3 b p c)) = ix2 b p from by idx_rfl,
    show idx_main_v76 (idx_main_v77 (ix3 b p c)) = ix1 c from by idx_rfl,
    show idx_main_v38 (idx_main_v78 (ix3 b p c)) = ix2 b p from by idx_rfl]
  rfl

/-- ⟨Z0⟩ = p0 + p1 − p2 − p3 over the four stages. -/
theorem z0_at : val_main_v87 (F := Ideal) x0 x1 x2 (ix3 b p c)
    = val_main_v53 (F := Ideal) x0 x1 x2 (ix3 b p c) * val_main_v53 (F := Ideal) x0 x1 x2 (ix3 b p c)
      + val_main_v71 (F := Ideal) x0 x1 x2 (ix3 b p c) * val_main_v71 (F := Ideal) x0 x1 x2 (ix3 b p c)
      - val_main_v62 (F := Ideal) x0 x1 x2 (ix3 b p c) * val_main_v62 (F := Ideal) x0 x1 x2 (ix3 b p c)
      - val_main_v80 (F := Ideal) x0 x1 x2 (ix3 b p c) * val_main_v80 (F := Ideal) x0 x1 x2 (ix3 b p c) := by
  simp only [val_main_v87_apply, val_main_v86_apply, val_main_v85_apply, val_main_v81_apply, val_main_v82_apply,
    val_main_v83_apply, val_main_v84_apply]
  rfl
/-- ⟨Z1⟩ = p0 − p1 + p2 − p3. -/
theorem z1_at : val_main_v90 (F := Ideal) x0 x1 x2 (ix3 b p c)
    = val_main_v53 (F := Ideal) x0 x1 x2 (ix3 b p c) * val_main_v53 (F := Ideal) x0 x1 x2 (ix3 b p c)
      - val_main_v71 (F := Ideal) x0 x1 x2 (ix3 b p c) * val_main_v71 (F := Ideal) x0 x1 x2 (ix3 b p c)
      + val_main_v62 (F := Ideal) x0 x1 x2 (ix3 b p c) * val_main_v62 (F := Ideal) x0 x1 x2 (ix3 b p c)
      - val_main_v80 (F := Ideal) x0 x1 x2 (ix3 b p c) * val_main_v80 (F := Ideal) x0 x1 x2 (ix3 b p c) := by
  simp only [val_main_v90_apply, val_main_v89_apply, val_main_v88_apply, val_main_v81_apply, val_main_v82_apply,
    val_main_v83_apply, val_main_v84_apply]
  rfl

/-- The stacked pair at (row, pair, z, class): ⟨Z0⟩ at z = 0, ⟨Z1⟩ at z = 1. -/
theorem stack_at (z : Fin 2) : val_main_v93 (F := Ideal) x0 x1 x2 (ix4 b p z c)
    = bif decide (z.val = 1) then val_main_v90 (F := Ideal) x0 x1 x2 (ix3 b p c)
      else val_main_v87 (F := Ideal) x0 x1 x2 (ix3 b p c) := by
  unfold val_main_v93
  by_cases hz : z.val = 1
  · rw [decide_eq_true hz, cond_true]
    rw [concatenate_pair_apply_right (s₁ := S8192x512x1x7) (s₂ := S8192x512x1x7) (2 : Fin 4) _ _ _ (ix4 b p z c) rfl rfl (ix4 b p (0 : Fin 1) c)
      (fun d hd => by fin_cases d <;> first | rfl | exact absurd rfl hd)
      (by show 0 + 1 = z.val; omega)]
    rw [val_main_v92_apply, show idx_main_v92 (ix4 b p (0 : Fin 1) c) = ix3 b p c from by idx_rfl]
  · have hz0 : z.val = 0 := by have := z.isLt; omega
    rw [decide_eq_false hz, cond_false]
    rw [concatenate_pair_apply_left (s₁ := S8192x512x1x7) (s₂ := S8192x512x1x7) (2 : Fin 4) _ _ _ (ix4 b p z c) rfl (ix4 b p (0 : Fin 1) c)
      (fun d => by fin_cases d <;> first | rfl | exact hz0.symm)]
    rw [val_main_v91_apply, show idx_main_v91 (ix4 b p (0 : Fin 1) c) = ix3 b p c from by idx_rfl]

/-- THE REFERENCE'S RESULT at (row, q, class) is the cube's element (row, q / 2, q % 2, class). -/
theorem result_at (q : Fin 1024) (z : Fin 2) (hp : p.val = q.val / 2) (hz : z.val = q.val % 2) :
    val_main_v98 (F := Ideal) x0 x1 x2 (ix3 b q c) = cube (angA x0 x1) (angB x0 x1) x2 b p z c := by
  have hq := q.isLt
  have hc := c.isLt
  rw [val_main_v98_apply,
    show idx_main_v98 (ix3 b q c) = ix4 b p z c from by
      funext a; apply Fin.ext
      fin_cases a
      · show ((b.val * 1024 + q.val) * 7 + c.val) / 7168 = b.val; omega
      · show ((b.val * 1024 + q.val) * 7 + c.val) / 14 % 512 = p.val; omega
      · show ((b.val * 1024 + q.val) * 7 + c.val) / 7 % 2 = z.val; omega
      · show ((b.val * 1024 + q.val) * 7 + c.val) % 7 = c.val; omega]
  simp only [val_main_v97_apply, val_main_v95_apply, val_main_v94_apply, val_main_v96_apply, val_main_cst_8_apply,
    val_main_cst_9_apply]
  rw [stack_at, z0_at, z1_at, n0_at, n1_at, n2_at, n3_at, amp0_at, amp1_at, amp2_at, amp3_at, ct_at, st_at]
  unfold cube expect
  cases decide (z.val = 1) <;> rfl

end Cert.ReferenceIdeal.RefValue

end
-- ==== Proof.lean ====
/-
  The two-qubit circuit kernel against its reference, over the extended reals.

  Both programs gather, for each of 512 pixel pairs, the two pixels of every batch row as rotation angles a and b, and
  return for each of seven class angles θ the two expectations (⟨Z0⟩ + 1)/2 and (⟨Z1⟩ + 1)/2 of the state
  RY0(θ) · CNOT · (RY(a) ⊗ RY(b)) |00⟩. The reference computes all four outcome probabilities; the kernel uses
  p0 + p1 + p2 + p3 = 1 to drop p0, writes a flat row of 7168 lanes per batch row (lane 14·pair + 7·z + class), and a
  reshape reads those rows as the [8192, 1024, 7] result. Under the precondition — x and theta finite, the pair indices
  in 0 … 1023 — every angle is a real number, cos² + sin² = 1 applies three times, and the two results agree element by
  element (Proof/CircuitAlgebra.lean). The precondition's index range is also what makes the kernel's filling gather
  (out-of-range columns become a NaN word) the plain gather the reference does.

  The kernel's side: the stored block at an index (Proof/KernelBody.lean), the arrays its host operations prepare
  (Proof/KernelHost.lean), the blocks assembled into the output array and the reshape after the region
  (Proof/KernelValue.lean). The reference's side: its result at an index (Proof/RefValue.lean). Here: the gathered angle
  arrays of the two programs are one term, the two results are one array, and the claims.
-/
import proofs.«400467_j89816356094179_4_alg».proof.Defs
import proofs.«400467_j89816356094179_4_alg».proof.Proof.Gen.Kernel
import proofs.«400467_j89816356094179_4_alg».proof.Proof.Gen.Kernel.Skeleton
import proofs.«400467_j89816356094179_4_alg».proof.Proof.Gen.Kernel.Launch
import proofs.«400467_j89816356094179_4_alg».proof.Proof.Gen.Kernel.Points
import proofs.«400467_j89816356094179_4_alg».proof.Proof.Gen.Kernel.Frame
import proofs.«400467_j89816356094179_4_alg».proof.Proof.Gen.KernelIdeal
import proofs.«400467_j89816356094179_4_alg».proof.Proof.Gen.KernelIdeal.Skeleton
import proofs.«400467_j89816356094179_4_alg».proof.Proof.Gen.KernelIdeal.Launch
import proofs.«400467_j89816356094179_4_alg».proof.Proof.Gen.KernelIdeal.Points
import proofs.«400467_j89816356094179_4_alg».proof.Proof.Gen.KernelIdeal.Frame
import proofs.«400467_j89816356094179_4_alg».proof.Proof.Gen.ReferenceIdeal
import proofs.«400467_j89816356094179_4_alg».proof.Proof.Gen.ReferenceIdeal.Run
import proofs.«400467_j89816356094179_4_alg».proof.Proof.Gen.ReferenceIdeal.Read
import proofs.«400467_j89816356094179_4_alg».proof.Proof.Gen.Pre_finite_inputs
import proofs.«400467_j89816356094179_4_alg».proof.Proof.CircuitAlgebra
import proofs.«400467_j89816356094179_4_alg».proof.Proof.LayoutReads
import proofs.«400467_j89816356094179_4_alg».proof.Proof.PreFacts
import proofs.«400467_j89816356094179_4_alg».proof.Proof.KernelBody
import proofs.«400467_j89816356094179_4_alg».proof.Proof.KernelHost
import proofs.«400467_j89816356094179_4_alg».proof.Proof.KernelValue
import proofs.«400467_j89816356094179_4_alg».proof.Proof.RefValue
import Idealize.ShloMosaic.Adequacy
import Idealize.ShloMosaic.Init

noncomputable section

namespace Cert.Proof.Bridge

open Idealize.ShloMosaic Idealize.ShloMosaic.TcCoe Idealize.SL.Sem Idealize.ShloMosaic.ValueIdx
open Cert.Circuit

/-- The kernel's plain gather at column 0 of pair_indices is the reference's first angle array: the same reshape of x,
    the same wrapped column, the same gather. -/
theorem gathered0_eq (x : FVec Ideal Cert.KernelIdeal.S8192x1x32x32 .f32) (pi : IVec Cert.KernelIdeal.S512x2 32) :
    Cert.KernelIdeal.Host.gathered x (Cert.KernelIdeal.Host.col0 pi) = Cert.ReferenceIdeal.RefValue.angA x pi := rfl
/-- And at column 1 the second. -/
theorem gathered1_eq (x : FVec Ideal Cert.KernelIdeal.S8192x1x32x32 .f32) (pi : IVec Cert.KernelIdeal.S512x2 32) :
    Cert.KernelIdeal.Host.gathered x (Cert.KernelIdeal.Host.col1 pi) = Cert.ReferenceIdeal.RefValue.angB x pi := rfl

open Cert.KernelIdeal Cert.KernelIdeal.Gen in
/-- THE TWO RESULTS ARE ONE ARRAY: the kernel's flat rows read as the cube are the reference's result. -/
theorem result_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1))
      (m ((c.tc : Thread nD τ).loc main_arg2)) = fun _ => 1#1) :
    shapeCast S8192x1024x7 (Blocks.flatOut m c) shapeCasts_S8192x7168_S8192x1024x7
      = Cert.ReferenceIdeal.Read.val_main_v98 (F := Ideal) (m ((c.tc : Thread nD τ).loc main_arg0))
          (m ((c.tc : Thread nD τ).loc main_arg1)) (m ((c.tc : Thread nD τ).loc main_arg2)) := by
  obtain ⟨hx, hth, hge, hlt⟩ := Cert.Circuit.Pre.decode _ _ _ hpre
  have hpi : ∀ i, ((m ((c.tc : Thread nD τ).loc main_arg1) : S512x2.Idx → BitVec 32) i).toNat < 1024 :=
    fun i => Cert.Circuit.Pre.toNat_lt _ (hge i) (hlt i)
  have eA : Blocks.angA m c = Cert.ReferenceIdeal.RefValue.angA (m ((c.tc : Thread nD τ).loc main_arg0)) (m ((c.tc : Thread nD τ).loc main_arg1)) :=
    (Host.angA_host m c).trans ((Host.taken_eq _ _ (Host.col0_lt _ hpi)).trans (gathered0_eq _ _))
  have eB : Blocks.angB m c = Cert.ReferenceIdeal.RefValue.angB (m ((c.tc : Thread nD τ).loc main_arg0)) (m ((c.tc : Thread nD τ).loc main_arg1)) :=
    (Host.angB_host m c).trans ((Host.taken_eq _ _ (Host.col1_lt _ hpi)).trans (gathered1_eq _ _))
  have eflat : Blocks.flatOut m c
      = flat (Cert.ReferenceIdeal.RefValue.angA (m ((c.tc : Thread nD τ).loc main_arg0)) (m ((c.tc : Thread nD τ).loc main_arg1)))
          (Cert.ReferenceIdeal.RefValue.angB (m ((c.tc : Thread nD τ).loc main_arg0)) (m ((c.tc : Thread nD τ).loc main_arg1)))
          (m ((c.tc : Thread nD τ).loc main_arg2)) := by
    show flatRows _ _ _ (Blocks.angA m c) (Blocks.angB m c) = _
    rw [eA, eB]
    exact flatRows_eq_flat _ _ _ _ _ _ (Host.ct_at m c) (Host.st_at m c) (Host.zf_at m c)
  funext i
  obtain ⟨b, q, k, rfl⟩ : ∃ (b : Fin 8192) (q : Fin 1024) (k : Fin 7), i = ix3 b q k := ⟨i 0, i 1, i 2, eq_ix3 i⟩
  have hq := q.isLt
  have hk := k.isLt
  rw [Layout.cube_apply _ shapeCasts_S8192x7168_S8192x1024x7 b q k ⟨7 * q.val + k.val, by omega⟩ rfl, eflat,
    flat_eq_cube _ _ _ (Cert.ReferenceIdeal.RefValue.angA_real _ _ hx) (Cert.ReferenceIdeal.RefValue.angB_real _ _ hx) hth
      b ⟨q.val / 2, by omega⟩ ⟨q.val % 2, Nat.mod_lt _ (by decide)⟩ k _
      (by show 7 * q.val + k.val = 14 * (q.val / 2) + 7 * (q.val % 2) + k.val; omega)]
  exact (Cert.ReferenceIdeal.RefValue.result_at _ _ _ b ⟨q.val / 2, by omega⟩ k q ⟨q.val % 2, Nat.mod_lt _ (by decide)⟩ rfl rfl).symm

end Cert.Proof.Bridge

namespace Cert.Proof.Claims

open Idealize.ShloMosaic Idealize.SL.Sem

/-- The word-level kernel runs and keeps its arguments: the generated frame. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end, the kernel's result buffer at the cube reading of its
    flat rows and the reference's at its own term: one array under the precondition. -/
theorem algebraic : Cert.algebraic_KernelIdeal_ReferenceIdeal := by
  intro m ρ m' ρ' hpre hagree
  refine ⟨fun c => shapeCast Cert.KernelIdeal.S8192x1024x7 (Cert.KernelIdeal.Blocks.flatOut m c)
    Cert.KernelIdeal.Gen.shapeCasts_S8192x7168_S8192x1024x7, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2]
  exact (Cert.Proof.Bridge.result_eq m c (hpre c)).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
